-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S_ : Shape := ⟨0, ![]⟩

class Facts : Prop where
  bcast_S_S128x1024 : S_.BroadcastsInDim S128x1024 (![] : Fin 0 → Fin S128x1024.rank)
  reducesTo_S128x1024_S_d0_1 : S128x1024.ReducesTo [0, 1] S_
  h_S_ : 0 < S_.numel

variable [Facts]

def fn {F : FTy → Type} [FloatOps F] (main_arg0 : FVec F S128x1024 .f32) (main_arg1 : FVec F S128x1024 .f32) : IVec S_ 1 :=
  let main_v0 : FVec F S128x1024 .f32 := Host.absf main_arg0
  let main_cst : FVec F S_ .f32 := constant S_ .f32 0x7F800000#32
  let main_v1 : FVec F S128x1024 .f32 := broadcastInDim S128x1024 ![] bcast_S_S128x1024 main_cst
  let main_v2 : IVec S128x1024 1 := cmpf .olt main_v0 main_v1
  let main_c : IVec S_ 1 := constantI S_ 1 1#1
  let main_v3 : IVec S_ 1 := (fun x v => Host.reduce IntOp.andi x v reducesTo_S128x1024_S_d0_1 h_S_) main_v2 main_c
  let main_v4 : FVec F S128x1024 .f32 := Host.absf main_arg1
  let main_cst_0 : FVec F S_ .f32 := constant S_ .f32 0x7F800000#32
  let main_v5 : FVec F S128x1024 .f32 := broadcastInDim S128x1024 ![] bcast_S_S128x1024 main_cst_0
  let main_v6 : IVec S128x1024 1 := cmpf .olt main_v4 main_v5
  let main_c_1 : IVec S_ 1 := constantI S_ 1 1#1
  let main_v7 : IVec S_ 1 := (fun x v => Host.reduce IntOp.andi x v reducesTo_S128x1024_S_d0_1 h_S_) main_v6 main_c_1
  let main_v8 : IVec S_ 1 := andi main_v3 main_v7
  main_v8
-- ==== Kernel.lean ====
abbrev S128x1024 : Shape := ⟨2, ![128, 1024]⟩
abbrev S1x1 : Shape := ⟨2, ![1, 1]⟩
abbrev S32x128 : Shape := ⟨2, ![32, 128]⟩
abbrev S32x1x128 : Shape := ⟨3, ![32, 1, 128]⟩
abbrev S32x128x1 : Shape := ⟨3, ![32, 128, 1]⟩
abbrev S32x128x128 : Shape := ⟨3, ![32, 128, 128]⟩
abbrev S32x1 : Shape := ⟨2, ![32, 1]⟩
abbrev S32x1x1 : Shape := ⟨3, ![32, 1, 1]⟩
abbrev S1x1x1 : Shape := ⟨3, ![1, 1, 1]⟩
abbrev S_ : Shape := ⟨0, ![]⟩

abbrev nBuf : Space → Nat
  | .hbm => 6
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S1x1, .f32⟩
  | .local _ .vmem, ⟨9, _⟩ => ⟨S1x1, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg0 : BitVec 32 := BitVec.ofNat 32 (i 0).val
  let c3_i32 : BitVec 32 := 3#32
  let v37 : BitVec 1 := Scalar.cmpi .eq arg0 c3_i32
  let arg1 : BitVec 32 := BitVec.ofNat 32 (i 1).val
  let c7_i32 : BitVec 32 := 7#32
  let v38 : BitVec 1 := Scalar.cmpi .eq arg1 c7_i32
  let v39 : BitVec 1 := Scalar.andi v37 v38
  let arg2 : BitVec 32 := BitVec.ofNat 32 (i 2).val
  let c7_i32_16 : BitVec 32 := 7#32
  let v40 : BitVec 1 := Scalar.cmpi .eq arg2 c7_i32_16
  let v41 : BitVec 1 := Scalar.andi v39 v40
  let v42 : BitVec 32 := Scalar.extui v41
  let c0_i32_17 : BitVec 32 := 0#32
  let v43 : BitVec 1 := Scalar.cmpi .ne v42 c0_i32_17
  v43

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x128_S32x128_0_0 : ∀ a, (![0, 0] : Fin 2 → Nat) a + S32x128.size a ≤ S32x128.size a
  h_S32x128 : 0 < S32x128.numel
  shapeCasts_S32x128_S32x1x128 : S32x128.ShapeCasts S32x1x128
  shapeCasts_S32x128_S32x128x1 : S32x128.ShapeCasts S32x128x1
  broadcasts_S32x1x128_S32x128x128 : S32x1x128.Broadcasts S32x128x128
  broadcasts_S32x128x1_S32x128x128 : S32x128x1.Broadcasts S32x128x128
  reduces_S32x128x128_S32x128 : S32x128x128.Reduces [2] S32x128
  reduces_S32x128x1_S32x1 : S32x128x1.Reduces [1] S32x1
  shapeCasts_S32x1_S32x1x1 : S32x1.ShapeCasts S32x1x1
  reduces_S32x1x1_S1x1 : S32x1x1.Reduces [0] S1x1
  shapeCasts_S1x1_S1x1x1 : S1x1.ShapeCasts S1x1x1
  shapeCasts_S1x1x1_S1x1 : S1x1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128.size a ≤ S128x1024.size a
  hwx0_0 : ∀ i : grid0.Coords, EltTy.bits .f32 = 32 ∨ (Rect.block (s := S128x1024) S32x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S128x1024.size a
  hwx0_1 : ∀ i : grid0.Coords, EltTy.bits .f32 = 32 ∨ (Rect.block (s := S128x1024) S32x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S128x1024.size a
  hwx0_2 : ∀ i : grid0.Coords, EltTy.bits .f32 = 32 ∨ (Rect.block (s := S128x1024) S32x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S128x1024.size a
  hwx0_3 : ∀ i : grid0.Coords, EltTy.bits .f32 = 32 ∨ (Rect.block (s := S128x1024) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S32x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S128x1024 : Shape := ⟨2, ![128, 1024]⟩
abbrev S128x1x1024 : Shape := ⟨3, ![128, 1, 1024]⟩
abbrev S128x1024x1 : Shape := ⟨3, ![128, 1024, 1]⟩
abbrev S128x1024x1024 : Shape := ⟨3, ![128, 1024, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S128x1x1024, .f32⟩
  | .hbm, ⟨3, _⟩ => ⟨S128x1024x1, .f32⟩
  | .hbm, ⟨4, _⟩ => ⟨S128x1024x1024, .f32⟩
  | .hbm, ⟨5, _⟩ => ⟨S128x1024x1024, .f32⟩
  | .hbm, ⟨6, _⟩ => ⟨S128x1024x1024, .f32⟩
  | .hbm, ⟨7, _⟩ => ⟨S128x1024x1024, .f32⟩
  | .hbm, ⟨8, _⟩ => ⟨S128x1x1024, .f32⟩
  | .hbm, ⟨9, _⟩ => ⟨S128x1024x1, .f32⟩
  | .hbm, ⟨10, _⟩ => ⟨S128x1024x1024, .f32⟩
  | .hbm, ⟨11, _⟩ => ⟨S128x1024x1024, .f32⟩
  | .hbm, ⟨12, _⟩ => ⟨S128x1024x1024, .f32⟩
  | .hbm, ⟨13, _⟩ => ⟨S128x1024x1024, .f32⟩
  | .hbm, ⟨14, _⟩ => ⟨S128x1024x1024, .f32⟩
  | .hbm, ⟨15, _⟩ => ⟨S128x1024x1024, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S128x1024_S128x1024x1_0_1 : S128x1024.BroadcastsInDim S128x1024x1 (![0, 1] : Fin 2 → Fin S128x1024x1.rank)
  bcast_S128x1x1024_S128x1024x1024_0_1_2 : S128x1x1024.BroadcastsInDim S128x1024x1024 (![0, 1, 2] : Fin 3 → Fin S128x1024x1024.rank)
  bcast_S128x1024x1_S128x1024x1024_0_1_2 : S128x1024x1.BroadcastsInDim S128x1024x1024 (![0, 1, 2] : Fin 3 → Fin S128x1024x1024.rank)
  reducesTo_S128x1024x1024_S_d0_1_2 : S128x1024x1024.ReducesTo [0, 1, 2] S_
  h_S_ : 0 < S_.numel

variable [Facts₀]

class Facts : Prop extends Facts₀ where

variable [Facts]
-- ==== Proof.K.Data.lean ====
/-
  The proof data of the kernel's one pallas_call, for any float instance.

  The grid has 256 points t = 64·a + 8·b + g (a < 4, b < 8, g < 8). At point t the body is handed four
  32×128 blocks: rows 32a.. of x at columns 128b.. and at columns 128g.., and the same two blocks of the
  soft target. It adds to a 1×1 scratch the sum over the 32×128×128 tile of
  ((x[r,128g+j] − x[r,128b+i])² − (s[r,128g+j] − s[r,128b+i])²)², the scratch zeroed first at t = 0, and at
  t = 255 stores the scratch times 2⁻²⁷ into the 1×1 output block, which is written back once, at that point.

  So the scratch after point t is a recursion on t over the tile sums (`accAt`), the output block at the last
  point is `outVal`, and the input windows' staging buffers hold their array's block at every point.
-/
import proofs.«104633_j7687991460410_1_alg».proof.Proof.Gen.Kernel.Skeleton
import proofs.«104633_j7687991460410_1_alg».proof.Proof.Gen.Kernel.Launch
import proofs.«104633_j7687991460410_1_alg».proof.Proof.Gen.Kernel.Points
import Idealize.ShloMosaic.Lib.Pipeline.FrameBody
import Idealize.ShloMosaic.Lib.Pipeline.Regions

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Window `w`'s block of its array at point `t`, the array as launched (no host operation runs before the region). -/
def iblk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c : Thread nD τ)))

/-- The four input blocks at a point, at their literal type: x at the row block (`xi`) and at the column block
    (`xj`), the soft target likewise (`si`, `sj`). -/
abbrev xi (c : Dev nD) (t : Fin cfg0.N) : Vec F S32x128 .f32 := iblk m c 0 t
abbrev xj (c : Dev nD) (t : Fin cfg0.N) : Vec F S32x128 .f32 := iblk m c 1 t
abbrev si (c : Dev nD) (t : Fin cfg0.N) : Vec F S32x128 .f32 := iblk m c 2 t
abbrev sj (c : Dev nD) (t : Fin cfg0.N) : Vec F S32x128 .f32 := iblk m c 3 t

/-- The scratch after point `n`: the tile sum of point `n` added to what the point before left, to zero at the first. -/
def accAt (c : Dev nD) : (n : ℕ) → n < cfg0.N → Vec F S1x1 .f32
  | 0, h => k0_pay3 (xi m c ⟨0, h⟩) (xj m c ⟨0, h⟩) (si m c ⟨0, h⟩) (sj m c ⟨0, h⟩) (k0_pay2 (F := F))
  | n + 1, h => k0_pay3 (xi m c ⟨n + 1, h⟩) (xj m c ⟨n + 1, h⟩) (si m c ⟨n + 1, h⟩) (sj m c ⟨n + 1, h⟩) (accAt c n (Nat.lt_of_succ_lt h))

theorem accAt_zero (c : Dev nD) (h : 0 < cfg0.N) :
    accAt m c 0 h = k0_pay3 (xi m c ⟨0, h⟩) (xj m c ⟨0, h⟩) (si m c ⟨0, h⟩) (sj m c ⟨0, h⟩) (k0_pay2 (F := F)) := rfl

theorem accAt_succ (c : Dev nD) (n : ℕ) (h : n + 1 < cfg0.N) :
    accAt m c (n + 1) h = k0_pay3 (xi m c ⟨n + 1, h⟩) (xj m c ⟨n + 1, h⟩) (si m c ⟨n + 1, h⟩) (sj m c ⟨n + 1, h⟩) (accAt m c n (Nat.lt_of_succ_lt h)) := rfl

/-- The last point. -/
abbrev tLast : Fin cfg0.N := ⟨255, by have h : cfg0.N = 256 := N_0; omega⟩

/-- What the last point stores into the output block: the finished sum times the constant. -/
def outVal (c : Dev nD) : Vec F S1x1 .f32 := k0_pay1 (accAt m c 255 tLast.isLt)

/-- The scratch operand as a memref. -/
abbrev scM : Memref sig .tc .vmem S1x1 .f32 := Memref.whole cc0_scratch0

/-- The invariant before point `n`: the scratch at anything before the first point, afterwards at the running sum. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

/-- One half of an argument array for each of the two windows on it. -/
abbrev halfL : PosShare TreeShare := fullShare.left
abbrev halfR : PosShare TreeShare := fullShare.right

/-- The proof data on core `c`. -/
def dats (_ : Fin 1) (c : Dev nD) : Dat τ (Elt F) Unit ℕ (UR sig nD τ) ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => outVal m c
  Φ t := PhiS m c t.val (Nat.le_of_lt_succ t.isLt)
  q w := match w with
    | ⟨0, _⟩ => halfL
    | ⟨1, _⟩ => halfR
    | ⟨2, _⟩ => halfL
    | ⟨3, _⟩ => halfR
    | ⟨4, _⟩ => fullShare
  owed _ := 0

/-- Core `c`'s unscoped buffers when the region has ended: the output array as the pipeline left it, every other as launched. -/
def Vx (c : Dev nD) : Valuation τ sig (Elt F) :=
  Function.update (fun b => m ((c : Dev nD), b)) (Proc.devRef .tc main_v0) ((dats m 0 c).arrAt 4 cfg0.N)

/-- What @main returns on core `c`: the three host operations after the region (a reshape to a scalar, the
    constant one, their product) applied to that. -/
def result (c : Dev nD) : Buf (Elt F) ((c : Thread nD τ).loc main_v2) :=
  StableHlo.after hostOps1 (Vx m c) (Proc.devRef .tc main_v2)

end Cert.Kernel.Hand

end
-- ==== Proof.K.Body.lean ====
/-
  The kernel body at every grid point meets the proof data: handed the four input blocks and the scratch at the
  running sum, it leaves the scratch at the next running sum, the inputs as found, and at the last point the
  output block at the scaled sum.

  Three kinds of point occur on the grid of 256: the first (the scratch is zeroed before the tile sum is added, the
  output untouched), the last (the tile sum is added to the scratch, which is read back, scaled and stored into the
  output block), and every point between (the tile sum is added, the output untouched). The body's run is stated once
  per kind over any whole staging buffers and any input contents; the two conditions the body branches on are decided
  over the grid in closed form; the obligation at a point is the run of that point's kind, the input buffers at their
  blocks whether fetched there or not.
-/
import proofs.«104633_j7687991460410_1_alg».proof.Proof.K.Data
import Idealize.ShloMosaic.Lib.Tactic

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ (UR sig nD τ) ℕ

variable (m : (ℓ : Loc nD τ sig) → Buf (Elt F) ℓ)

namespace BodyAux

/-! ## Loads and stores through the whole-buffer rectangle -/

/-- The zero offsets of a rank-two rectangle, as the program spells them. -/
theorem zeros2 : (![0, 0] : Fin 2 → Nat) = fun _ => 0 := by funext a; fin_cases a <;> rfl

/-- After a store through the whole-shape rectangle at zero offsets, made last, the buffer reads as that store's payload,
    whatever the earlier stores and the contents before them were. -/
theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through that rectangle reads the contents. -/
theorem readAt_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-! ## The body's run, by kind of point

Each is stated over any whole staging buffers `a3 … a7` and scratch `a8`, the input buffers at any contents
`x0 … x3`, and any continuation `K`: the inputs come back as they were. -/

/-- The condition of the body's first branch (the reset), from the grid coordinates: all three are zero. -/
abbrev condFirst (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1

/-- A point that is neither first nor last: the scratch at `acc` ends at `acc` plus the tile sum; the output buffer
    is not touched. -/
theorem runMid (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S1x1 .f32) (h7 : a7.IsWhole) (a8 : Memref sig .tc .vmem S1x1 .f32) (h8 : a8.IsWhole)
    (hf : ¬condFirst i) (hl : ¬k0_cond2 i = 1#1)
    (x0 x1 x2 x3 : Vec F S32x128 .f32) (acc : Vec F S1x1 .f32) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a8 fullShare acc
        ∗ (iprop(owns (c : Thread nD τ) a3 fullShare x0 ∗ owns (c : Thread nD τ) a4 fullShare x1
        ∗ owns (c : Thread nD τ) a5 fullShare x2 ∗ owns (c : Thread nD τ) a6 fullShare x3
            ∗ owns (c : Thread nD τ) a8 fullShare (k0_pay3 x0 x1 x2 x3 acc)) -∗ K ⟨⟩))
      ⊢ wp frame (wpE (defs₀ (F := F)) Variants.none c none) E (cc0__kernel i a3 h3 a4 h4 a5 h5 a6 h6 a7 h7 a8 h8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%fs, %hfs, HS⟩, Hk⟩
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_unit_zero _ _ zeros2 _ _ _).trans ?_
  sl_unfold_run_names
  have e0 := (readAt_unit_zero a3.view f0 zeros2 inb_S32x128_S32x128_0_0).trans hf0
  have e1 := (readAt_unit_zero a4.view f1 zeros2 inb_S32x128_S32x128_0_0).trans hf1
  have e2 := (readAt_unit_zero a5.view f2 zeros2 inb_S32x128_S32x128_0_0).trans hf2
  have e3 := (readAt_unit_zero a6.view f3 zeros2 inb_S32x128_S32x128_0_0).trans hf3
  have es := (readAt_unit_zero a8.view fs zeros2 inb_S1x1_S1x1_0_0).trans hfs
  rw [e0, e1, e2, e3, es]

/-- The first point: the scratch, at anything, is zeroed, read back as zero, and ends at zero plus the tile sum; the
    output buffer is not touched. -/
theorem runFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S1x1 .f32) (h7 : a7.IsWhole) (a8 : Memref sig .tc .vmem S1x1 .f32) (h8 : a8.IsWhole)
    (hf : condFirst i) (hl : ¬k0_cond2 i = 1#1)
    (x0 x1 x2 x3 : Vec F S32x128 .f32) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ (∃ d, owns (c : Thread nD τ) a8 fullShare d)
        ∗ (iprop(owns (c : Thread nD τ) a3 fullShare x0 ∗ owns (c : Thread nD τ) a4 fullShare x1
        ∗ owns (c : Thread nD τ) a5 fullShare x2 ∗ owns (c : Thread nD τ) a6 fullShare x3
            ∗ owns (c : Thread nD τ) a8 fullShare (k0_pay3 x0 x1 x2 x3 (k0_pay2 (F := F)))) -∗ K ⟨⟩))
      ⊢ wp frame (wpE (defs₀ (F := F)) Variants.none c none) E (cc0__kernel i a3 h3 a4 h4 a5 h5 a6 h6 a7 h7 a8 h8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_unit_zero _ _ zeros2 _ _ _).trans ?_
  sl_unfold_run_names
  have e0 := (readAt_unit_zero a3.view f0 zeros2 inb_S32x128_S32x128_0_0).trans hf0
  have e1 := (readAt_unit_zero a4.view f1 zeros2 inb_S32x128_S32x128_0_0).trans hf1
  have e2 := (readAt_unit_zero a5.view f2 zeros2 inb_S32x128_S32x128_0_0).trans hf2
  have e3 := (readAt_unit_zero a6.view f3 zeros2 inb_S32x128_S32x128_0_0).trans hf3
  rw [e0, e1, e2, e3, View.readCov_cons_toLoadRect]

/-- The last point: the scratch at `acc` ends at `acc` plus the tile sum, and the output buffer, at anything, ends at
    that sum — read back from the scratch — times the constant. -/
theorem runLast (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S1x1 .f32) (h7 : a7.IsWhole) (a8 : Memref sig .tc .vmem S1x1 .f32) (h8 : a8.IsWhole)
    (hf : ¬condFirst i) (hl : k0_cond2 i = 1#1)
    (x0 x1 x2 x3 : Vec F S32x128 .f32) (acc : Vec F S1x1 .f32) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a8 fullShare acc ∗ (∃ d, owns (c : Thread nD τ) a7 fullShare d)
        ∗ (iprop(owns (c : Thread nD τ) a3 fullShare x0 ∗ owns (c : Thread nD τ) a4 fullShare x1
        ∗ owns (c : Thread nD τ) a5 fullShare x2 ∗ owns (c : Thread nD τ) a6 fullShare x3
            ∗ owns (c : Thread nD τ) a8 fullShare (k0_pay3 x0 x1 x2 x3 acc)
            ∗ owns (c : Thread nD τ) a7 fullShare (k0_pay1 (k0_pay3 x0 x1 x2 x3 acc))) -∗ K ⟨⟩))
      ⊢ wp frame (wpE (defs₀ (F := F)) Variants.none c none) E (cc0__kernel i a3 h3 a4 h4 a5 h5 a6 h6 a7 h7 a8 h8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%fs, %hfs, HS⟩, ⟨%d7, %f7, -, H7⟩, Hk⟩
  sl_exec (disch := first | exact hf | exact hl)
  sl_step
  have e0 := (readAt_unit_zero a3.view f0 zeros2 inb_S32x128_S32x128_0_0).trans hf0
  have e1 := (readAt_unit_zero a4.view f1 zeros2 inb_S32x128_S32x128_0_0).trans hf1
  have e2 := (readAt_unit_zero a5.view f2 zeros2 inb_S32x128_S32x128_0_0).trans hf2
  have e3 := (readAt_unit_zero a6.view f3 zeros2 inb_S32x128_S32x128_0_0).trans hf3
  have es := (readAt_unit_zero a8.view fs zeros2 inb_S1x1_S1x1_0_0).trans hfs
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS]
  · iexists _; isplitr
    swap; · iexact HS
    ipureintro
    sl_unfold_run_names
    refine (read_writes_unit_zero _ _ zeros2 _ _ _).trans ?_
    rw [e0, e1, e2, e3, es]
  iexists _; isplitr
  swap; · iexact H7
  ipureintro
  refine (read_writes_unit_zero _ _ zeros2 _ _ _).trans ?_
  sl_unfold_run_names
  rw [View.readCov_cons_toLoadRect, e0, e1, e2, e3, es]

/-! ## The two conditions over the grid -/

/-- The reset is taken at the first point only. -/
theorem hcondFirst : ∀ t : Fin cfg0.N, condFirst (grid0.coords t) ↔ t.val = 0 :=
  (by decide +kernel : ∀ t : Fin grid0.N, condFirst (grid0.coords t) ↔ t.val = 0)

/-- The output is stored at the last point only. -/
theorem hcondLast : ∀ t : Fin cfg0.N, k0_cond2 (grid0.coords t) = 1#1 ↔ t.val = 255 :=
  (by decide +kernel : ∀ t : Fin grid0.N, k0_cond2 (grid0.coords t) = 1#1 ↔ t.val = 255)

/-- Away from the last point the output window is idle, -/
theorem idle4 (t : Fin cfg0.N) (h : t.val ≠ 255) : cfg0.idle 4 (grid0.coords t) = true := by
  have hc : ¬k0_cond2 (grid0.coords t) = 1#1 := fun e => h ((hcondLast t).mp e)
  show (!(k0_cond2 (grid0.coords t) == 1#1)) = true
  rw [Bool.not_eq_true', beq_eq_false_iff_ne]; exact hc

/-- and its block is not written back; -/
theorem noFlush4 (t : Fin cfg0.N) (h : t.val ≠ 255) : (cfg0.win 4).flush t = false := by
  have hN : t.val < 256 := lt_of_lt_of_eq t.isLt (show cfg0.N = 256 from N_0)
  cases hfl : (cfg0.win 4).flush t with
  | false => rfl
  | true => exact absurd ((flush0_4 t).mp hfl) (by omega)

/-- at the last point it is live. -/
theorem live4 (t : Fin cfg0.N) (h : t.val = 255) : cfg0.idle 4 (grid0.coords t) = false := by
  have hc : k0_cond2 (grid0.coords t) = 1#1 := (hcondLast t).mpr h
  show (!(k0_cond2 (grid0.coords t) == 1#1)) = false
  rw [hc]; rfl

/-! ## The proof data, window by window -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outVal m c := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rfl) t d).trans (by unfold Dat.fetched Dat.blockOf iblk; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rfl) t d).trans (by unfold Dat.fetched Dat.blockOf iblk; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rfl) t d).trans (by unfold Dat.fetched Dat.blockOf iblk; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rfl) t d).trans (by unfold Dat.fetched Dat.blockOf iblk; rfl)

/-- The invariant before a point: the scratch at anything before the first, -/
theorem Phi_first (c : Dev nD) (t : Fin cfg0.N) (hz : t.val = 0) :
    (dats m 0 c).Φ t.castSucc = iprop(∃ d, owns (c : Thread nD τ) scM fullShare d) := by
  obtain ⟨n, hn⟩ := t
  cases n with
  | zero => rfl
  | succ n => exact absurd hz (Nat.succ_ne_zero n)

/-- at what the point before left otherwise; -/
theorem Phi_pos (c : Dev nD) (t : Fin cfg0.N) (hz : t.val ≠ 0) :
    (dats m 0 c).Φ t.castSucc = owns (c : Thread nD τ) scM fullShare (accAt m c (t.val - 1) (Nat.lt_of_le_of_lt (Nat.sub_le _ _) t.isLt)) := by
  obtain ⟨n, hn⟩ := t
  cases n with
  | zero => exact absurd rfl hz
  | succ n => rfl

/-- and after it at this point's running sum. -/
theorem Phi_succ (c : Dev nD) (t : Fin cfg0.N) :
    (dats m 0 c).Φ t.succ = owns (c : Thread nD τ) scM fullShare (accAt m c t.val t.isLt) := rfl

/-- The running sum at the first point starts from zero, -/
theorem accAt_first (c : Dev nD) (t : Fin cfg0.N) (hz : t.val = 0) :
    accAt m c t.val t.isLt = k0_pay3 (xi m c t) (xj m c t) (si m c t) (sj m c t) (k0_pay2 (F := F)) := by
  obtain ⟨n, hn⟩ := t
  cases n with
  | zero => rfl
  | succ n => exact absurd hz (Nat.succ_ne_zero n)

/-- and at a later point from the sum before it. -/
theorem accAt_pos (c : Dev nD) (t : Fin cfg0.N) (hz : t.val ≠ 0) :
    accAt m c t.val t.isLt = k0_pay3 (xi m c t) (xj m c t) (si m c t) (sj m c t) (accAt m c (t.val - 1) (Nat.lt_of_le_of_lt (Nat.sub_le _ _) t.isLt)) := by
  obtain ⟨n, hn⟩ := t
  cases n with
  | zero => exact absurd rfl hz
  | succ n => rfl

/-- What the last point stores into the output block, from that point's running sum. -/
theorem outVal_last (c : Dev nD) (t : Fin cfg0.N) (hl : t.val = 255) : outVal m c = k0_pay1 (accAt m c t.val t.isLt) := by
  obtain ⟨n, hn⟩ := t
  subst hl; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window is never idle: the body leaves its buffer at its block. -/
theorem leaves0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after3]

/-- The output window away from the last point is handed back as found; -/
theorem leaves4_idle (c : Dev nD) (t : Fin cfg0.N) (h : t.val ≠ 255) :
    (dats m 0 c).leavesExact 4 t = iprop(∃ d, owns (c : Thread nD τ) (st0_4 t) fullShare ((dats m 0 c).before 4 t d)) :=
  Dat.leavesExact_idle (dats m 0 c) 4 t (idle4 t h) (noFlush4 t h)

/-- at the last point it holds the scaled sum. -/
theorem leaves4_last (c : Dev nD) (t : Fin cfg0.N) (h : t.val = 255) :
    (dats m 0 c).leavesExact 4 t = owns (c : Thread nD τ) (st0_4 t) fullShare (k0_pay1 (accAt m c t.val t.isLt)) := by
  unfold Dat.leavesExact; rw [live4 t h, after4, outVal_last m c t h]

/-- The body at any point: the inputs' buffers hold their blocks; the closed forms say which kind the point is of; the
    invariant hands the body the scratch at what the point before left (at anything at the first point) and takes it
    back at this point's running sum; away from the last point the output buffer passes through untouched; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [leaves0, leaves1, leaves2, leaves3, Phi_succ]
  by_cases hz : t.val = 0
  · have hl : t.val ≠ 255 := by omega
    rw [Phi_first m c t hz, leaves4_idle m c t hl, accAt_first m c t hz]
    iintro ⟨HS, Ho, ⟨%d0, H0⟩, ⟨%d1, H1⟩, ⟨%d2, H2⟩, ⟨%d3, H3⟩, H4⟩
    iapply (runFirst c (grid0.coords t) _ _ _ _ _ _ _ _ _ _ _ _ ((hcondFirst t).mpr hz) (fun e => hl ((hcondLast t).mp e))
      (xi m c t) (xj m c t) (si m c t) (sj m c t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS]; · iexact HS
    isplitl [Ho]; · iexact Ho
    isplitl [H0]; · iexact H0
    isplitl [H1]; · iexact H1
    isplitl [H2]; · iexact H2
    isplitl [H3]; · iexact H3
    iexact H4
  · by_cases hl : t.val = 255
    · rw [Phi_pos m c t hz, leaves4_last m c t hl, accAt_pos m c t hz]
      iintro ⟨HS, Ho, ⟨%d0, H0⟩, ⟨%d1, H1⟩, ⟨%d2, H2⟩, ⟨%d3, H3⟩, ⟨%d4, H4⟩⟩
      iapply (runLast c (grid0.coords t) _ _ _ _ _ _ _ _ _ _ _ _ (fun e => hz ((hcondFirst t).mp e)) ((hcondLast t).mpr hl)
        (xi m c t) (xj m c t) (si m c t) (sj m c t) _ Set.univ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HS]; · iexact HS
      isplitl [Ho]; · iexact Ho
      isplitl [H0]; · iexact H0
      isplitl [H1]; · iexact H1
      isplitl [H2]; · iexact H2
      isplitl [H3]; · iexact H3
      iexact H4
    · rw [Phi_pos m c t hz, leaves4_idle m c t hl, accAt_pos m c t hz]
      iintro ⟨HS, Ho, ⟨%d0, H0⟩, ⟨%d1, H1⟩, ⟨%d2, H2⟩, ⟨%d3, H3⟩, H4⟩
      iapply (runMid c (grid0.coords t) _ _ _ _ _ _ _ _ _ _ _ _ (fun e => hz ((hcondFirst t).mp e)) (fun e => hl ((hcondLast t).mp e))
        (xi m c t) (xj m c t) (si m c t) (sj m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      isplitl [H3]; · iexact H3
      iexact H4

end BodyAux

open BodyAux in
/-- The body obligation, at every point: the five windows one by one. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Run.lean ====
/-
  The whole program's run: the pallas_call, then the three host operations on its result.

  @main is one kernel region followed by a reshape, a constant and a product. The region's five windows sit on
  three buffers: windows 0 and 1 both read the first argument, windows 2 and 3 both read the second, window 4
  writes the result. So at the region's entry each argument's full share is cut into two halves, one per window,
  and at its exit the halves are joined again — both windows hold the argument at the contents it was launched
  with, an input array never being written. The result buffer leaves the region at what the pipeline's one
  write-back left in it; the three scalars the host operations use bypass the region. The scratch enters the
  invariant at some contents and leaves it at some contents. After the region the host operations run over the
  unscoped buffers at that valuation, and the final memory is read off what they leave.
-/
import proofs.«104633_j7687991460410_1_alg».proof.Proof.K.Body

noncomputable section

namespace Cert.Kernel.Hand

open Cert.Kernel Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- The pipeline library's algebra is the whole of the certificate's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- Core `c`'s buffers at launch, as a valuation. -/
abbrev V₀ (c : Dev nD) : Valuation τ sig (Elt F) := fun b => m ((c : Dev nD), b)

/-- What rides beside the buffers: the core owing nothing. -/
abbrev Owe (c : Dev nD) : sProp 𝕄 := iprop(∃ W, owes (c : Thread nD τ) (0 : CellTallies nD τ sig Unit) W)

/-! ## The five windows on three buffers -/

/-- The buffers behind the windows' arrays: both arguments and the result. -/
theorem arrRefs_eq : Finset.univ.image (Pipeline.arrRef spec0) = [main_arg0, main_arg1, main_v0].toFinset := by decide

omit [FloatOps F] in
/-- Those buffers, whole, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0)) := by
  unfold Pipeline.arrBufs
  exact bigSep_eq_bigSepL_of_eq [main_arg0, main_arg1, main_v0] arrRefs_eq (by decide) _

/-- The pipeline's arrays, window by window: each argument at its two halves, the result whole. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{halfL} G 0) ∗ (((c : Thread nD τ).loc main_arg0) ↦{halfR} G 1)
          ∗ (((c : Thread nD τ).loc main_arg1) ↦{halfL} G 2) ∗ (((c : Thread nD τ).loc main_arg1) ↦{halfR} G 3)
          ∗ (((c : Thread nD τ).loc main_v0) ↦{fullShare} G 4)) := by
  unfold Dat.arrays
  rw [bigSep_W0, (arr_whole0 0).set_eq_univ, (arr_whole0 2).set_eq_univ, (arr_whole0 4).set_eq_univ]
  rfl

/-- ENTRY: the three buffers, whole, make the five windows' arrays — each argument's full share cut into the two
    halves its two windows hold, both at the buffer's contents. -/
theorem arrays_entry (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ (dats m 0 c).arrays G := by
  rw [arrBufs_eq, arrays_eq5, hG 0, hG 1, hG 2, hG 3, hG 4]
  iintro ⟨H0, H1, H2⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  iexact H2

/-- EXIT: the converse. Two windows on one argument hold it at one contents, so their halves join to the whole. -/
theorem arrays_exit (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dats m 0 c).arrays G ⊢ (Pipeline.arrBufs (Ix := Unit) (Name := ℕ) (U := UR sig nD τ) (Lvl := ℕ) spec0 c V : sProp 𝕄) := by
  rw [arrBufs_eq, arrays_eq5, hG 0, hG 1, hG 2, hG 3, hG 4]
  iintro ⟨H0l, H0r, H1l, H1r, H2⟩
  isplitl [H0l H0r]
  · iapply (pointsTo_share (PosShare.mem_left_op_right fullShare)).2
    isplitl [H0l] <;> iassumption
  isplitl [H1l H1r]
  · iapply (pointsTo_share (PosShare.mem_left_op_right fullShare)).2
    isplitl [H1l] <;> iassumption
  iexact H2

/-! ## The valuation the region leaves -/

/-- Off the result buffer it is the launch memory. -/
theorem Vx_of_ne (c : Dev nD) (b : Ref sig .tc) (h : b ≠ main_v0) : Vx m c (Proc.devRef .tc b) = m ((c : Thread nD τ).loc b) :=
  Function.update_of_ne (StableHlo.devRef_ne_of_ne h) _ _

/-- At the result buffer it is what the pipeline's write-backs left. -/
theorem Vx_v0 (c : Dev nD) : Vx m c (Proc.devRef .tc main_v0) = (dats m 0 c).arrAt 4 cfg0.N :=
  Function.update_self _ _ _

/-- Each window's array ends at that valuation: an input window's array is never written. -/
theorem arrAt_last (c : Dev nD) (w : Fin cfg0.W) : (dats m 0 c).arrAt w cfg0.N = Vx m c (Proc.devRef .tc (Pipeline.arrRef spec0 w)) := by
  match w with
  | ⟨0, _⟩ => exact ((dats m 0 c).arrAt_in 0 rfl _).trans (Vx_of_ne m c main_arg0 (by decide)).symm
  | ⟨1, _⟩ => exact ((dats m 0 c).arrAt_in 1 rfl _).trans (Vx_of_ne m c main_arg0 (by decide)).symm
  | ⟨2, _⟩ => exact ((dats m 0 c).arrAt_in 2 rfl _).trans (Vx_of_ne m c main_arg1 (by decide)).symm
  | ⟨3, _⟩ => exact ((dats m 0 c).arrAt_in 3 rfl _).trans (Vx_of_ne m c main_arg1 (by decide)).symm
  | ⟨4, _⟩ => exact (Vx_v0 m c).symm

/-- The unscoped buffers that are no window's array are untouched by the region. -/
theorem rest_Vx (c : Dev nD) :
    (Pipeline.unscopedRest (Ix := Unit) (Name := ℕ) (U := UR sig nD τ) (Lvl := ℕ) spec0 c (fun b => Vx m c b) : sProp 𝕄)
      = Pipeline.unscopedRest spec0 c (fun b => V₀ m c b) := by
  rw [unscopedRest0_eq, unscopedRest0_eq, Vx_of_ne m c main_v1 (by decide), Vx_of_ne m c main_cst (by decide), Vx_of_ne m c main_v2 (by decide)]

/-- The scratch's invariant at any point forgets to the scratch at something. -/
theorem PhiS_forget (c : Dev nD) : ∀ (n : ℕ) (hn : n ≤ cfg0.N),
    PhiS m c n hn ⊢ iprop(∃ f : Buf (Elt F) ((c : Thread nD τ).loc cc0_scratch0), ((c : Thread nD τ).loc cc0_scratch0) ↦{fullShare} f)
  | 0, _ => by
    show iprop(∃ d, owns (c : Thread nD τ) scM fullShare d) ⊢ _
    simp only [owns_whole]
    iintro ⟨%d, H⟩; iexists d; iexact H
  | n + 1, hn => by
    show owns (c : Thread nD τ) scM fullShare (accAt m c n hn) ⊢ _
    rw [owns_whole]
    iintro H; iexists _; iexact H

/-! ## The host operations after the region -/

/-- None of the three host operations writes a buffer other than their three results. -/
theorem not_written (b : Ref sig .tc) (hb : b ≠ main_v1 ∧ b ≠ main_cst ∧ b ≠ main_v2) :
    ∀ op ∈ (hostOps1 (F := F)), Proc.devRef .tc b ∉ op.writes := by
  obtain ⟨h1, h2, h3⟩ := hb
  intro op hop
  simp only [List.mem_cons, List.mem_nil_iff, or_false] at hop
  rcases hop with rfl | rfl | rfl
  · rw [StableHlo.reshape_writes, Finset.mem_singleton]; exact StableHlo.devRef_ne_of_ne h1
  · rw [StableHlo.nullary_writes, Finset.mem_singleton]; exact StableHlo.devRef_ne_of_ne h2
  · rw [StableHlo.binary_writes, Finset.mem_singleton]; exact StableHlo.devRef_ne_of_ne h3

/-- So an argument array is at the end what it was at launch. -/
theorem after_arg (c : Dev nD) (b : Ref sig .tc) (hb : b ≠ main_v1 ∧ b ≠ main_cst ∧ b ≠ main_v2) (h0 : b ≠ main_v0) :
    StableHlo.after hostOps1 (Vx m c) (Proc.devRef .tc b) = m ((c : Thread nD τ).loc b) :=
  (StableHlo.after_of_forall_not_mem (b := Proc.devRef .tc b) hostOps1 (Vx m c) (not_written b hb)).trans (Vx_of_ne m c b h0)

omit [FloatOps F] in
/-- An unscoped TensorCore reference is among the held ones. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE HOST SEGMENT: the three operations over the unscoped buffers, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by
      intro op hop
      simp only [List.mem_cons, List.mem_nil_iff, or_false] at hop
      rcases hop with rfl | rfl | rfl <;> rfl)
    (fun c => Vx m c) Owe

/-! ## The region -/

-- the pinned configuration `pin pcfgs adm 0` is `cfg0` only up to unfolding definitions inside types
set_option backward.isDefEq.respectTransparency.types false in
/-- THE REGION: entered from the launch memory — each argument split between its two windows, the result buffer whole,
    the three scalars bypassing —, left with the result buffer as the pipeline's write-back left it and all else as
    launched. The scratch enters the invariant at something and leaves it at something. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ Owe c)
  post c := iprop(StableHlo.held (c : Thread nD τ) (Pipeline.ucRefs τ sig) (Vx m c) ∗ Owe c)
  X c := iprop(emp)
  Y c := iprop(emp)
  Z c := Pipeline.unscopedRest spec0 c (fun b => V₀ m c b)
  hentry c := by
    rw [← Pipeline.unscopedBufs_held c (V₀ m c), Pipeline.unscopedBufs_split₀ cfgs 0 winFacts₀0.arr_unscoped c]
    iintro ⟨⟨⟨Ha, Hr⟩, HO⟩, -, -⟩
    ihave Ha := (arrays_entry m c _ ((dats m 0 c).arrAt · 0) (fun _ => rfl)) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [scopedRest0_eq]
    show _ ⊢ iprop(∃ d, owns (c : Thread nD τ) scM fullShare d)
    iintro ⟨-, -, ⟨%f, Hs⟩⟩
    iexists f
    rw [owns_whole]; iexact Hs
  hout c := by
    rw [Pipeline.ownSems0_none, scopedRest0_eq]
    show PhiS m c (Fin.last cfg0.N).val _ ⊢ _
    refine (PhiS_forget m c _ _).trans ?_
    iintro Hs
    isplitr; · iempintro
    isplitr; · iempintro
    iexact Hs
  hexit c := by
    rw [← Pipeline.unscopedBufs_held c (Vx m c), Pipeline.unscopedBufs_split₀ cfgs 0 winFacts₀0.arr_unscoped c, rest_Vx]
    iintro ⟨Ha, HO, -, HZ⟩
    ihave Ha := (arrays_exit m c (fun b => Vx m c b) ((dats m 0 c).arrAt · cfg0.N) (arrAt_last m c)) $$ Ha
    imodintro
    isplitr [HO]
    · isplitl [Ha]; · iexact Ha
      iexact HZ
    · unfold Pipeline.Dat.owesAt Pipeline.owesWithin
      icases HO with ⟨%W, -, HO⟩; iexists W; iexact HO

/-- @main as the list of the two. -/
abbrev segs : List (Pipeline.Seg (pcfgs (F := F)) adm (dats m) () defs₀ 𝒱₀ L lv) := [.region (reg0 m), .host (seg1 m)]

-- as above: the launch theorem's conclusion meets this statement only up to unfolding definitions inside types
set_option backward.isDefEq.respectTransparency.types false in
/-- From any memory with zero semaphore counters every weakly fair execution terminates, nothing faulting; the
    result buffer ends at `result` and both argument arrays as they were. -/
theorem run_main : θ_run defs (onTc (τ := τ) (main (F := F))) ⟨m, fun _ => 0, ρ⟩ (fun r => ∀ c : Dev nD,
    r.2.mem ((c.tc : Thread nD τ).loc main_v2) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Owe c))
    (Tₙ := fun c => StableHlo.held (c : Thread nD τ) (Pipeline.ucRefs τ sig) (StableHlo.after hostOps1 (Vx m c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = StableHlo.after hostOps1 (Vx m c) b)
    (hfin := fun c s' => by
      iintro ⟨Hh, HSI⟩
      unfold StableHlo.held
      imodintro
      iapply (pointsTo_read_all (Pipeline.ucRefs τ sig) (fun b => ((c : Thread nD τ).1, b)) (StableHlo.after hostOps1 (Vx m c)) s')
      isplitl [Hh] <;> iassumption)
    (hQ := fun s h c =>
      ⟨h c _ (mem_uc main_v2 (by decide)),
        (h c _ (mem_uc main_arg0 (by decide))).trans (after_arg m c main_arg0 (by decide) (by decide)),
        (h c _ (mem_uc main_arg1 (by decide))).trans (after_arg m c main_arg1 (by decide) (by decide))⟩)

end Cert.Kernel.Hand

end
-- ==== Proof.KI.Data.lean ====
/-
  The proof data of the kernel's one pallas_call, for any float instance.

  The grid has 256 points t = 64·a + 8·b + g (a < 4, b < 8, g < 8). At point t the body is handed four
  32×128 blocks: rows 32a.. of x at columns 128b.. and at columns 128g.., and the same two blocks of the
  soft target. It adds to a 1×1 scratch the sum over the 32×128×128 tile of
  ((x[r,128g+j] − x[r,128b+i])² − (s[r,128g+j] − s[r,128b+i])²)², the scratch zeroed first at t = 0, and at
  t = 255 stores the scratch times 2⁻²⁷ into the 1×1 output block, which is written back once, at that point.

  So the scratch after point t is a recursion on t over the tile sums (`accAt`), the output block at the last
  point is `outVal`, and the input windows' staging buffers hold their array's block at every point.
-/
import proofs.«104633_j7687991460410_1_alg».proof.Proof.Gen.KernelIdeal.Skeleton
import proofs.«104633_j7687991460410_1_alg».proof.Proof.Gen.KernelIdeal.Launch
import proofs.«104633_j7687991460410_1_alg».proof.Proof.Gen.KernelIdeal.Points
import Idealize.ShloMosaic.Lib.Pipeline.FrameBody
import Idealize.ShloMosaic.Lib.Pipeline.Regions

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Window `w`'s block of its array at point `t`, the array as launched (no host operation runs before the region). -/
def iblk (c : Dev nD) (w : Fin cfg0.W) (t : Fin cfg0.N) : ((cfg0.win w).xblock (cfg0.grid.coords t)).Idx → Elt F (cfg0.win w).elt :=
  ((cfg0.win w).blk t).view.read (Elt F) (m ((cfg0.win w).arr.view.loc (c : Thread nD τ)))

/-- The four input blocks at a point, at their literal type: x at the row block (`xi`) and at the column block
    (`xj`), the soft target likewise (`si`, `sj`). -/
abbrev xi (c : Dev nD) (t : Fin cfg0.N) : Vec F S32x128 .f32 := iblk m c 0 t
abbrev xj (c : Dev nD) (t : Fin cfg0.N) : Vec F S32x128 .f32 := iblk m c 1 t
abbrev si (c : Dev nD) (t : Fin cfg0.N) : Vec F S32x128 .f32 := iblk m c 2 t
abbrev sj (c : Dev nD) (t : Fin cfg0.N) : Vec F S32x128 .f32 := iblk m c 3 t

/-- The scratch after point `n`: the tile sum of point `n` added to what the point before left, to zero at the first. -/
def accAt (c : Dev nD) : (n : ℕ) → n < cfg0.N → Vec F S1x1 .f32
  | 0, h => k0_pay3 (xi m c ⟨0, h⟩) (xj m c ⟨0, h⟩) (si m c ⟨0, h⟩) (sj m c ⟨0, h⟩) (k0_pay2 (F := F))
  | n + 1, h => k0_pay3 (xi m c ⟨n + 1, h⟩) (xj m c ⟨n + 1, h⟩) (si m c ⟨n + 1, h⟩) (sj m c ⟨n + 1, h⟩) (accAt c n (Nat.lt_of_succ_lt h))

theorem accAt_zero (c : Dev nD) (h : 0 < cfg0.N) :
    accAt m c 0 h = k0_pay3 (xi m c ⟨0, h⟩) (xj m c ⟨0, h⟩) (si m c ⟨0, h⟩) (sj m c ⟨0, h⟩) (k0_pay2 (F := F)) := rfl

theorem accAt_succ (c : Dev nD) (n : ℕ) (h : n + 1 < cfg0.N) :
    accAt m c (n + 1) h = k0_pay3 (xi m c ⟨n + 1, h⟩) (xj m c ⟨n + 1, h⟩) (si m c ⟨n + 1, h⟩) (sj m c ⟨n + 1, h⟩) (accAt m c n (Nat.lt_of_succ_lt h)) := rfl

/-- The last point. -/
abbrev tLast : Fin cfg0.N := ⟨255, by have h : cfg0.N = 256 := N_0; omega⟩

/-- What the last point stores into the output block: the finished sum times the constant. -/
def outVal (c : Dev nD) : Vec F S1x1 .f32 := k0_pay1 (accAt m c 255 tLast.isLt)

/-- The scratch operand as a memref. -/
abbrev scM : Memref sig .tc .vmem S1x1 .f32 := Memref.whole cc0_scratch0

/-- The invariant before point `n`: the scratch at anything before the first point, afterwards at the running sum. -/
def PhiS (c : Dev nD) : (n : ℕ) → n ≤ cfg0.N → sProp 𝕄
  | 0, _ => iprop(∃ d, owns (c : Thread nD τ) scM fullShare d)
  | n + 1, hn => owns (c : Thread nD τ) scM fullShare (accAt m c n hn)

/-- One half of an argument array for each of the two windows on it. -/
abbrev halfL : PosShare TreeShare := fullShare.left
abbrev halfR : PosShare TreeShare := fullShare.right

/-- The proof data on core `c`. -/
def dats (_ : Fin 1) (c : Dev nD) : Dat τ (Elt F) Unit ℕ (UR sig nD τ) ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => outVal m c
  Φ t := PhiS m c t.val (Nat.le_of_lt_succ t.isLt)
  q w := match w with
    | ⟨0, _⟩ => halfL
    | ⟨1, _⟩ => halfR
    | ⟨2, _⟩ => halfL
    | ⟨3, _⟩ => halfR
    | ⟨4, _⟩ => fullShare
  owed _ := 0

/-- Core `c`'s unscoped buffers when the region has ended: the output array as the pipeline left it, every other as launched. -/
def Vx (c : Dev nD) : Valuation τ sig (Elt F) :=
  Function.update (fun b => m ((c : Dev nD), b)) (Proc.devRef .tc main_v0) ((dats m 0 c).arrAt 4 cfg0.N)

/-- What @main returns on core `c`: the three host operations after the region (a reshape to a scalar, the
    constant one, their product) applied to that. -/
def result (c : Dev nD) : Buf (Elt F) ((c : Thread nD τ).loc main_v2) :=
  StableHlo.after hostOps1 (Vx m c) (Proc.devRef .tc main_v2)

end Cert.KernelIdeal.Hand

end
-- ==== Proof.KI.Body.lean ====
/-
  The kernel body at every grid point meets the proof data: handed the four input blocks and the scratch at the
  running sum, it leaves the scratch at the next running sum, the inputs as found, and at the last point the
  output block at the scaled sum.

  Three kinds of point occur on the grid of 256: the first (the scratch is zeroed before the tile sum is added, the
  output untouched), the last (the tile sum is added to the scratch, which is read back, scaled and stored into the
  output block), and every point between (the tile sum is added, the output untouched). The body's run is stated once
  per kind over any whole staging buffers and any input contents; the two conditions the body branches on are decided
  over the grid in closed form; the obligation at a point is the run of that point's kind, the input buffers at their
  blocks whether fetched there or not.
-/
import proofs.«104633_j7687991460410_1_alg».proof.Proof.KI.Data
import Idealize.ShloMosaic.Lib.Tactic

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Tactic

variable {F : FTy → Type} [FloatOps F]

local notation "𝕄" => MT nD τ sig Unit (Elt F) ℕ (UR sig nD τ) ℕ

variable (m : (ℓ : Loc nD τ sig) → Buf (Elt F) ℓ)

namespace BodyAux

/-! ## Loads and stores through the whole-buffer rectangle -/

/-- The zero offsets of a rank-two rectangle, as the program spells them. -/
theorem zeros2 : (![0, 0] : Fin 2 → Nat) = fun _ => 0 := by funext a; fin_cases a <;> rfl

/-- After a store through the whole-shape rectangle at zero offsets, made last, the buffer reads as that store's payload,
    whatever the earlier stores and the contents before them were. -/
theorem read_writes_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

/-- A load through that rectangle reads the contents. -/
theorem readAt_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) :
    v.readAt Val (Rect.unit off S.size inb).toLoadRect f = v.read Val f := by
  subst h; funext x
  show v.read Val f ((Rect.whole S).emb x) = v.read Val f x
  rw [Rect.emb_whole_apply]

/-! ## The body's run, by kind of point

Each is stated over any whole staging buffers `a3 … a7` and scratch `a8`, the input buffers at any contents
`x0 … x3`, and any continuation `K`: the inputs come back as they were. -/

/-- The condition of the body's first branch (the reset), from the grid coordinates: all three are zero. -/
abbrev condFirst (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32 = 1#1

/-- A point that is neither first nor last: the scratch at `acc` ends at `acc` plus the tile sum; the output buffer
    is not touched. -/
theorem runMid (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S1x1 .f32) (h7 : a7.IsWhole) (a8 : Memref sig .tc .vmem S1x1 .f32) (h8 : a8.IsWhole)
    (hf : ¬condFirst i) (hl : ¬k0_cond2 i = 1#1)
    (x0 x1 x2 x3 : Vec F S32x128 .f32) (acc : Vec F S1x1 .f32) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a8 fullShare acc
        ∗ (iprop(owns (c : Thread nD τ) a3 fullShare x0 ∗ owns (c : Thread nD τ) a4 fullShare x1
        ∗ owns (c : Thread nD τ) a5 fullShare x2 ∗ owns (c : Thread nD τ) a6 fullShare x3
            ∗ owns (c : Thread nD τ) a8 fullShare (k0_pay3 x0 x1 x2 x3 acc)) -∗ K ⟨⟩))
      ⊢ wp frame (wpE (defs₀ (F := F)) Variants.none c none) E (cc0__kernel i a3 h3 a4 h4 a5 h5 a6 h6 a7 h7 a8 h8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%fs, %hfs, HS⟩, Hk⟩
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_unit_zero _ _ zeros2 _ _ _).trans ?_
  sl_unfold_run_names
  have e0 := (readAt_unit_zero a3.view f0 zeros2 inb_S32x128_S32x128_0_0).trans hf0
  have e1 := (readAt_unit_zero a4.view f1 zeros2 inb_S32x128_S32x128_0_0).trans hf1
  have e2 := (readAt_unit_zero a5.view f2 zeros2 inb_S32x128_S32x128_0_0).trans hf2
  have e3 := (readAt_unit_zero a6.view f3 zeros2 inb_S32x128_S32x128_0_0).trans hf3
  have es := (readAt_unit_zero a8.view fs zeros2 inb_S1x1_S1x1_0_0).trans hfs
  rw [e0, e1, e2, e3, es]

/-- The first point: the scratch, at anything, is zeroed, read back as zero, and ends at zero plus the tile sum; the
    output buffer is not touched. -/
theorem runFirst (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S1x1 .f32) (h7 : a7.IsWhole) (a8 : Memref sig .tc .vmem S1x1 .f32) (h8 : a8.IsWhole)
    (hf : condFirst i) (hl : ¬k0_cond2 i = 1#1)
    (x0 x1 x2 x3 : Vec F S32x128 .f32) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ (∃ d, owns (c : Thread nD τ) a8 fullShare d)
        ∗ (iprop(owns (c : Thread nD τ) a3 fullShare x0 ∗ owns (c : Thread nD τ) a4 fullShare x1
        ∗ owns (c : Thread nD τ) a5 fullShare x2 ∗ owns (c : Thread nD τ) a6 fullShare x3
            ∗ owns (c : Thread nD τ) a8 fullShare (k0_pay3 x0 x1 x2 x3 (k0_pay2 (F := F)))) -∗ K ⟨⟩))
      ⊢ wp frame (wpE (defs₀ (F := F)) Variants.none c none) E (cc0__kernel i a3 h3 a4 h4 a5 h5 a6 h6 a7 h7 a8 h8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  sl_exec (disch := first | exact hf | exact hl)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  iexists _; isplitr
  swap; · iexact HS
  ipureintro
  refine (read_writes_unit_zero _ _ zeros2 _ _ _).trans ?_
  sl_unfold_run_names
  have e0 := (readAt_unit_zero a3.view f0 zeros2 inb_S32x128_S32x128_0_0).trans hf0
  have e1 := (readAt_unit_zero a4.view f1 zeros2 inb_S32x128_S32x128_0_0).trans hf1
  have e2 := (readAt_unit_zero a5.view f2 zeros2 inb_S32x128_S32x128_0_0).trans hf2
  have e3 := (readAt_unit_zero a6.view f3 zeros2 inb_S32x128_S32x128_0_0).trans hf3
  rw [e0, e1, e2, e3, View.readCov_cons_toLoadRect]

/-- The last point: the scratch at `acc` ends at `acc` plus the tile sum, and the output buffer, at anything, ends at
    that sum — read back from the scratch — times the constant. -/
theorem runLast (c : Dev nD) (i : grid0.Coords)
    (a3 : Memref sig .tc .vmem S32x128 .f32) (h3 : a3.IsWhole) (a4 : Memref sig .tc .vmem S32x128 .f32) (h4 : a4.IsWhole)
    (a5 : Memref sig .tc .vmem S32x128 .f32) (h5 : a5.IsWhole) (a6 : Memref sig .tc .vmem S32x128 .f32) (h6 : a6.IsWhole)
    (a7 : Memref sig .tc .vmem S1x1 .f32) (h7 : a7.IsWhole) (a8 : Memref sig .tc .vmem S1x1 .f32) (h8 : a8.IsWhole)
    (hf : ¬condFirst i) (hl : k0_cond2 i = 1#1)
    (x0 x1 x2 x3 : Vec F S32x128 .f32) (acc : Vec F S1x1 .f32) (E : Set ℕ) (K : PUnit → sProp 𝕄) :
    iprop(owns (c : Thread nD τ) a3 fullShare x0 ∗ owns (c : Thread nD τ) a4 fullShare x1
        ∗ owns (c : Thread nD τ) a5 fullShare x2 ∗ owns (c : Thread nD τ) a6 fullShare x3
        ∗ owns (c : Thread nD τ) a8 fullShare acc ∗ (∃ d, owns (c : Thread nD τ) a7 fullShare d)
        ∗ (iprop(owns (c : Thread nD τ) a3 fullShare x0 ∗ owns (c : Thread nD τ) a4 fullShare x1
        ∗ owns (c : Thread nD τ) a5 fullShare x2 ∗ owns (c : Thread nD τ) a6 fullShare x3
            ∗ owns (c : Thread nD τ) a8 fullShare (k0_pay3 x0 x1 x2 x3 acc)
            ∗ owns (c : Thread nD τ) a7 fullShare (k0_pay1 (k0_pay3 x0 x1 x2 x3 acc))) -∗ K ⟨⟩))
      ⊢ wp frame (wpE (defs₀ (F := F)) Variants.none c none) E (cc0__kernel i a3 h3 a4 h4 a5 h5 a6 h6 a7 h7 a8 h8) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%fs, %hfs, HS⟩, ⟨%d7, %f7, -, H7⟩, Hk⟩
  sl_exec (disch := first | exact hf | exact hl)
  sl_step
  have e0 := (readAt_unit_zero a3.view f0 zeros2 inb_S32x128_S32x128_0_0).trans hf0
  have e1 := (readAt_unit_zero a4.view f1 zeros2 inb_S32x128_S32x128_0_0).trans hf1
  have e2 := (readAt_unit_zero a5.view f2 zeros2 inb_S32x128_S32x128_0_0).trans hf2
  have e3 := (readAt_unit_zero a6.view f3 zeros2 inb_S32x128_S32x128_0_0).trans hf3
  have es := (readAt_unit_zero a8.view fs zeros2 inb_S1x1_S1x1_0_0).trans hfs
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [HS]
  · iexists _; isplitr
    swap; · iexact HS
    ipureintro
    sl_unfold_run_names
    refine (read_writes_unit_zero _ _ zeros2 _ _ _).trans ?_
    rw [e0, e1, e2, e3, es]
  iexists _; isplitr
  swap; · iexact H7
  ipureintro
  refine (read_writes_unit_zero _ _ zeros2 _ _ _).trans ?_
  sl_unfold_run_names
  rw [View.readCov_cons_toLoadRect, e0, e1, e2, e3, es]

/-! ## The two conditions over the grid -/

/-- The reset is taken at the first point only. -/
theorem hcondFirst : ∀ t : Fin cfg0.N, condFirst (grid0.coords t) ↔ t.val = 0 :=
  (by decide +kernel : ∀ t : Fin grid0.N, condFirst (grid0.coords t) ↔ t.val = 0)

/-- The output is stored at the last point only. -/
theorem hcondLast : ∀ t : Fin cfg0.N, k0_cond2 (grid0.coords t) = 1#1 ↔ t.val = 255 :=
  (by decide +kernel : ∀ t : Fin grid0.N, k0_cond2 (grid0.coords t) = 1#1 ↔ t.val = 255)

/-- Away from the last point the output window is idle, -/
theorem idle4 (t : Fin cfg0.N) (h : t.val ≠ 255) : cfg0.idle 4 (grid0.coords t) = true := by
  have hc : ¬k0_cond2 (grid0.coords t) = 1#1 := fun e => h ((hcondLast t).mp e)
  show (!(k0_cond2 (grid0.coords t) == 1#1)) = true
  rw [Bool.not_eq_true', beq_eq_false_iff_ne]; exact hc

/-- and its block is not written back; -/
theorem noFlush4 (t : Fin cfg0.N) (h : t.val ≠ 255) : (cfg0.win 4).flush t = false := by
  have hN : t.val < 256 := lt_of_lt_of_eq t.isLt (show cfg0.N = 256 from N_0)
  cases hfl : (cfg0.win 4).flush t with
  | false => rfl
  | true => exact absurd ((flush0_4 t).mp hfl) (by omega)

/-- at the last point it is live. -/
theorem live4 (t : Fin cfg0.N) (h : t.val = 255) : cfg0.idle 4 (grid0.coords t) = false := by
  have hc : k0_cond2 (grid0.coords t) = 1#1 := (hcondLast t).mpr h
  show (!(k0_cond2 (grid0.coords t) == 1#1)) = false
  rw [hc]; rfl

/-! ## The proof data, window by window -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outVal m c := by dsimp only [dats]

/-- Each input window's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after0]; unfold Dat.blockOf iblk; rfl) t d).trans (by unfold Dat.fetched Dat.blockOf iblk; rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after1]; unfold Dat.blockOf iblk; rfl) t d).trans (by unfold Dat.fetched Dat.blockOf iblk; rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after2]; unfold Dat.blockOf iblk; rfl) t d).trans (by unfold Dat.fetched Dat.blockOf iblk; rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after3]; unfold Dat.blockOf iblk; rfl) t d).trans (by unfold Dat.fetched Dat.blockOf iblk; rfl)

/-- The invariant before a point: the scratch at anything before the first, -/
theorem Phi_first (c : Dev nD) (t : Fin cfg0.N) (hz : t.val = 0) :
    (dats m 0 c).Φ t.castSucc = iprop(∃ d, owns (c : Thread nD τ) scM fullShare d) := by
  obtain ⟨n, hn⟩ := t
  cases n with
  | zero => rfl
  | succ n => exact absurd hz (Nat.succ_ne_zero n)

/-- at what the point before left otherwise; -/
theorem Phi_pos (c : Dev nD) (t : Fin cfg0.N) (hz : t.val ≠ 0) :
    (dats m 0 c).Φ t.castSucc = owns (c : Thread nD τ) scM fullShare (accAt m c (t.val - 1) (Nat.lt_of_le_of_lt (Nat.sub_le _ _) t.isLt)) := by
  obtain ⟨n, hn⟩ := t
  cases n with
  | zero => exact absurd rfl hz
  | succ n => rfl

/-- and after it at this point's running sum. -/
theorem Phi_succ (c : Dev nD) (t : Fin cfg0.N) :
    (dats m 0 c).Φ t.succ = owns (c : Thread nD τ) scM fullShare (accAt m c t.val t.isLt) := rfl

/-- The running sum at the first point starts from zero, -/
theorem accAt_first (c : Dev nD) (t : Fin cfg0.N) (hz : t.val = 0) :
    accAt m c t.val t.isLt = k0_pay3 (xi m c t) (xj m c t) (si m c t) (sj m c t) (k0_pay2 (F := F)) := by
  obtain ⟨n, hn⟩ := t
  cases n with
  | zero => rfl
  | succ n => exact absurd hz (Nat.succ_ne_zero n)

/-- and at a later point from the sum before it. -/
theorem accAt_pos (c : Dev nD) (t : Fin cfg0.N) (hz : t.val ≠ 0) :
    accAt m c t.val t.isLt = k0_pay3 (xi m c t) (xj m c t) (si m c t) (sj m c t) (accAt m c (t.val - 1) (Nat.lt_of_le_of_lt (Nat.sub_le _ _) t.isLt)) := by
  obtain ⟨n, hn⟩ := t
  cases n with
  | zero => exact absurd rfl hz
  | succ n => rfl

/-- What the last point stores into the output block, from that point's running sum. -/
theorem outVal_last (c : Dev nD) (t : Fin cfg0.N) (hl : t.val = 255) : outVal m c = k0_pay1 (accAt m c t.val t.isLt) := by
  obtain ⟨n, hn⟩ := t
  subst hl; rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

/-- An input window is never idle: the body leaves its buffer at its block. -/
theorem leaves0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after3]

/-- The output window away from the last point is handed back as found; -/
theorem leaves4_idle (c : Dev nD) (t : Fin cfg0.N) (h : t.val ≠ 255) :
    (dats m 0 c).leavesExact 4 t = iprop(∃ d, owns (c : Thread nD τ) (st0_4 t) fullShare ((dats m 0 c).before 4 t d)) :=
  Dat.leavesExact_idle (dats m 0 c) 4 t (idle4 t h) (noFlush4 t h)

/-- at the last point it holds the scaled sum. -/
theorem leaves4_last (c : Dev nD) (t : Fin cfg0.N) (h : t.val = 255) :
    (dats m 0 c).leavesExact 4 t = owns (c : Thread nD τ) (st0_4 t) fullShare (k0_pay1 (accAt m c t.val t.isLt)) := by
  unfold Dat.leavesExact; rw [live4 t h, after4, outVal_last m c t h]

/-- The body at any point: the inputs' buffers hold their blocks; the closed forms say which kind the point is of; the
    invariant hands the body the scratch at what the point before left (at anything at the first point) and takes it
    back at this point's running sum; away from the last point the output buffer passes through untouched; the core
    owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [leaves0, leaves1, leaves2, leaves3, Phi_succ]
  by_cases hz : t.val = 0
  · have hl : t.val ≠ 255 := by omega
    rw [Phi_first m c t hz, leaves4_idle m c t hl, accAt_first m c t hz]
    iintro ⟨HS, Ho, ⟨%d0, H0⟩, ⟨%d1, H1⟩, ⟨%d2, H2⟩, ⟨%d3, H3⟩, H4⟩
    iapply (runFirst c (grid0.coords t) _ _ _ _ _ _ _ _ _ _ _ _ ((hcondFirst t).mpr hz) (fun e => hl ((hcondLast t).mp e))
      (xi m c t) (xj m c t) (si m c t) (sj m c t) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS]; · iexact HS
    isplitl [Ho]; · iexact Ho
    isplitl [H0]; · iexact H0
    isplitl [H1]; · iexact H1
    isplitl [H2]; · iexact H2
    isplitl [H3]; · iexact H3
    iexact H4
  · by_cases hl : t.val = 255
    · rw [Phi_pos m c t hz, leaves4_last m c t hl, accAt_pos m c t hz]
      iintro ⟨HS, Ho, ⟨%d0, H0⟩, ⟨%d1, H1⟩, ⟨%d2, H2⟩, ⟨%d3, H3⟩, ⟨%d4, H4⟩⟩
      iapply (runLast c (grid0.coords t) _ _ _ _ _ _ _ _ _ _ _ _ (fun e => hz ((hcondFirst t).mp e)) ((hcondLast t).mpr hl)
        (xi m c t) (xj m c t) (si m c t) (sj m c t) _ Set.univ _)
      isplitl [H0]; · iexact H0
      isplitl [H1]; · iexact H1
      isplitl [H2]; · iexact H2
      isplitl [H3]; · iexact H3
      isplitl [HS]; · iexact HS
      isplitl [H4]; · iexists _; iexact H4
      iintro ⟨H0, H1, H2, H3, HS, H4⟩
      isplitl [HS]; · iexact HS
      isplitl [Ho]; · iexact Ho
      isplitl [H0]; · iexact H0
      isplitl [H1]; · iexact H1
      isplitl [H2]; · iexact H2
      isplitl [H3]; · iexact H3
      iexact H4
    · rw [Phi_pos m c t hz, leaves4_idle m c t hl, accAt_pos m c t hz]
      iintro ⟨HS, Ho, ⟨%d0, H0⟩, ⟨%d1, H1⟩, ⟨%d2, H2⟩, ⟨%d3, H3⟩, H4⟩
      iapply (runMid c (grid0.coords t) _ _ _ _ _ _ _ _ _ _ _ _ (fun e => hz ((hcondFirst t).mp e)) (fun e => hl ((hcondLast t).mp e))
        (xi m c t) (xj m c t) (si m c t) (sj m c t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS]; · iexact HS
      isplitl [Ho]; · iexact Ho
      isplitl [H0]; · iexact H0
      isplitl [H1]; · iexact H1
      isplitl [H2]; · iexact H2
      isplitl [H3]; · iexact H3
      iexact H4

end BodyAux

open BodyAux in
/-- The body obligation, at every point: the five windows one by one. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The whole program's run: the pallas_call, then the three host operations on its result.

  @main is one kernel region followed by a reshape, a constant and a product. The region's five windows sit on
  three buffers: windows 0 and 1 both read the first argument, windows 2 and 3 both read the second, window 4
  writes the result. So at the region's entry each argument's full share is cut into two halves, one per window,
  and at its exit the halves are joined again — both windows hold the argument at the contents it was launched
  with, an input array never being written. The result buffer leaves the region at what the pipeline's one
  write-back left in it; the three scalars the host operations use bypass the region. The scratch enters the
  invariant at some contents and leaves it at some contents. After the region the host operations run over the
  unscoped buffers at that valuation, and the final memory is read off what they leave.
-/
import proofs.«104633_j7687991460410_1_alg».proof.Proof.KI.Body

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Names -/

/-- The pipeline library's algebra is the whole of the certificate's. -/
abbrev EP : Emb (UR sig nD τ) (MT nD τ sig Unit (Elt F) ℕ (UR sig nD τ) ℕ) := emb₁

abbrev 𝒱₀ : Variants := Variants.none
/-- No core owes another anything: no level is assigned. -/
abbrev L : GSem nD τ sig → Finset Unit := fun _ => ∅
abbrev lv : GSem nD τ sig → Unit → ℕ := fun _ _ => 0
/-- The prefetched tables' admissible contents: no table. -/
abbrev adm : (p : Fin 1) → (pcfgs (F := F) p).Adm := fun p => (cfgs p).toPCfg_adm

/-- Core `c`'s buffers at launch, as a valuation. -/
abbrev V₀ (c : Dev nD) : Valuation τ sig (Elt F) := fun b => m ((c : Dev nD), b)

/-- What rides beside the buffers: the core owing nothing. -/
abbrev Owe (c : Dev nD) : sProp 𝕄 := iprop(∃ W, owes (c : Thread nD τ) (0 : CellTallies nD τ sig Unit) W)

/-! ## The five windows on three buffers -/

/-- The buffers behind the windows' arrays: both arguments and the result. -/
theorem arrRefs_eq : Finset.univ.image (Pipeline.arrRef spec0) = [main_arg0, main_arg1, main_v0].toFinset := by decide

omit [FloatOps F] in
/-- Those buffers, whole, one by one. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_arg0) ↦{fullShare} V main_arg0) ∗ (((c : Thread nD τ).loc main_arg1) ↦{fullShare} V main_arg1)
          ∗ (((c : Thread nD τ).loc main_v0) ↦{fullShare} V main_v0)) := by
  unfold Pipeline.arrBufs
  exact bigSep_eq_bigSepL_of_eq [main_arg0, main_arg1, main_v0] arrRefs_eq (by decide) _

/-- The pipeline's arrays, window by window: each argument at its two halves, the result whole. -/
theorem arrays_eq5 (c : Dev nD) (G : (w : Fin cfg0.W) → Buf (Elt F) ((cfg0.win w).arr.view.loc (c : Thread nD τ))) :
    ((dats m 0 c).arrays G : sProp 𝕄)
      = iprop((((c : Thread nD τ).loc main_arg0) ↦{halfL} G 0) ∗ (((c : Thread nD τ).loc main_arg0) ↦{halfR} G 1)
          ∗ (((c : Thread nD τ).loc main_arg1) ↦{halfL} G 2) ∗ (((c : Thread nD τ).loc main_arg1) ↦{halfR} G 3)
          ∗ (((c : Thread nD τ).loc main_v0) ↦{fullShare} G 4)) := by
  unfold Dat.arrays
  rw [bigSep_W0, (arr_whole0 0).set_eq_univ, (arr_whole0 2).set_eq_univ, (arr_whole0 4).set_eq_univ]
  rfl

/-- ENTRY: the three buffers, whole, make the five windows' arrays — each argument's full share cut into the two
    halves its two windows hold, both at the buffer's contents. -/
theorem arrays_entry (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (Pipeline.arrBufs (Ix := Unit) (Name := ℕ) (U := UR sig nD τ) (Lvl := ℕ) spec0 c V : sProp 𝕄) ⊢ (dats m 0 c).arrays G := by
  rw [arrBufs_eq, arrays_eq5, hG 0, hG 1, hG 2, hG 3, hG 4]
  iintro ⟨H0, H1, H2⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H0r]; · iexact H0r
  isplitl [H1l]; · iexact H1l
  isplitl [H1r]; · iexact H1r
  iexact H2

/-- EXIT: the converse. Two windows on one argument hold it at one contents, so their halves join to the whole. -/
theorem arrays_exit (c : Dev nD) (V : (b : Ref sig .tc) → Buf (Elt F) ((c : Thread nD τ).loc b))
    (G : (w : Fin cfg0.W) → Buf (Elt F) ((cfg0.win w).arr.view.loc (c : Thread nD τ))) (hG : ∀ w, G w = V (Pipeline.arrRef spec0 w)) :
    (dats m 0 c).arrays G ⊢ (Pipeline.arrBufs (Ix := Unit) (Name := ℕ) (U := UR sig nD τ) (Lvl := ℕ) spec0 c V : sProp 𝕄) := by
  rw [arrBufs_eq, arrays_eq5, hG 0, hG 1, hG 2, hG 3, hG 4]
  iintro ⟨H0l, H0r, H1l, H1r, H2⟩
  isplitl [H0l H0r]
  · iapply (pointsTo_share (PosShare.mem_left_op_right fullShare)).2
    isplitl [H0l] <;> iassumption
  isplitl [H1l H1r]
  · iapply (pointsTo_share (PosShare.mem_left_op_right fullShare)).2
    isplitl [H1l] <;> iassumption
  iexact H2

/-! ## The valuation the region leaves -/

/-- Off the result buffer it is the launch memory. -/
theorem Vx_of_ne (c : Dev nD) (b : Ref sig .tc) (h : b ≠ main_v0) : Vx m c (Proc.devRef .tc b) = m ((c : Thread nD τ).loc b) :=
  Function.update_of_ne (StableHlo.devRef_ne_of_ne h) _ _

/-- At the result buffer it is what the pipeline's write-backs left. -/
theorem Vx_v0 (c : Dev nD) : Vx m c (Proc.devRef .tc main_v0) = (dats m 0 c).arrAt 4 cfg0.N :=
  Function.update_self _ _ _

/-- Each window's array ends at that valuation: an input window's array is never written. -/
theorem arrAt_last (c : Dev nD) (w : Fin cfg0.W) : (dats m 0 c).arrAt w cfg0.N = Vx m c (Proc.devRef .tc (Pipeline.arrRef spec0 w)) := by
  match w with
  | ⟨0, _⟩ => exact ((dats m 0 c).arrAt_in 0 rfl _).trans (Vx_of_ne m c main_arg0 (by decide)).symm
  | ⟨1, _⟩ => exact ((dats m 0 c).arrAt_in 1 rfl _).trans (Vx_of_ne m c main_arg0 (by decide)).symm
  | ⟨2, _⟩ => exact ((dats m 0 c).arrAt_in 2 rfl _).trans (Vx_of_ne m c main_arg1 (by decide)).symm
  | ⟨3, _⟩ => exact ((dats m 0 c).arrAt_in 3 rfl _).trans (Vx_of_ne m c main_arg1 (by decide)).symm
  | ⟨4, _⟩ => exact (Vx_v0 m c).symm

/-- The unscoped buffers that are no window's array are untouched by the region. -/
theorem rest_Vx (c : Dev nD) :
    (Pipeline.unscopedRest (Ix := Unit) (Name := ℕ) (U := UR sig nD τ) (Lvl := ℕ) spec0 c (fun b => Vx m c b) : sProp 𝕄)
      = Pipeline.unscopedRest spec0 c (fun b => V₀ m c b) := by
  rw [unscopedRest0_eq, unscopedRest0_eq, Vx_of_ne m c main_v1 (by decide), Vx_of_ne m c main_cst (by decide), Vx_of_ne m c main_v2 (by decide)]

/-- The scratch's invariant at any point forgets to the scratch at something. -/
theorem PhiS_forget (c : Dev nD) : ∀ (n : ℕ) (hn : n ≤ cfg0.N),
    PhiS m c n hn ⊢ iprop(∃ f : Buf (Elt F) ((c : Thread nD τ).loc cc0_scratch0), ((c : Thread nD τ).loc cc0_scratch0) ↦{fullShare} f)
  | 0, _ => by
    show iprop(∃ d, owns (c : Thread nD τ) scM fullShare d) ⊢ _
    simp only [owns_whole]
    iintro ⟨%d, H⟩; iexists d; iexact H
  | n + 1, hn => by
    show owns (c : Thread nD τ) scM fullShare (accAt m c n hn) ⊢ _
    rw [owns_whole]
    iintro H; iexists _; iexact H

/-! ## The host operations after the region -/

/-- None of the three host operations writes a buffer other than their three results. -/
theorem not_written (b : Ref sig .tc) (hb : b ≠ main_v1 ∧ b ≠ main_cst ∧ b ≠ main_v2) :
    ∀ op ∈ (hostOps1 (F := F)), Proc.devRef .tc b ∉ op.writes := by
  obtain ⟨h1, h2, h3⟩ := hb
  intro op hop
  simp only [List.mem_cons, List.mem_nil_iff, or_false] at hop
  rcases hop with rfl | rfl | rfl
  · rw [StableHlo.reshape_writes, Finset.mem_singleton]; exact StableHlo.devRef_ne_of_ne h1
  · rw [StableHlo.nullary_writes, Finset.mem_singleton]; exact StableHlo.devRef_ne_of_ne h2
  · rw [StableHlo.binary_writes, Finset.mem_singleton]; exact StableHlo.devRef_ne_of_ne h3

/-- So an argument array is at the end what it was at launch. -/
theorem after_arg (c : Dev nD) (b : Ref sig .tc) (hb : b ≠ main_v1 ∧ b ≠ main_cst ∧ b ≠ main_v2) (h0 : b ≠ main_v0) :
    StableHlo.after hostOps1 (Vx m c) (Proc.devRef .tc b) = m ((c : Thread nD τ).loc b) :=
  (StableHlo.after_of_forall_not_mem (b := Proc.devRef .tc b) hostOps1 (Vx m c) (not_written b hb)).trans (Vx_of_ne m c b h0)

omit [FloatOps F] in
/-- An unscoped TensorCore reference is among the held ones. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE HOST SEGMENT: the three operations over the unscoped buffers, from what the region left. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (by
      intro op hop
      simp only [List.mem_cons, List.mem_nil_iff, or_false] at hop
      rcases hop with rfl | rfl | rfl <;> rfl)
    (fun c => Vx m c) Owe

/-! ## The region -/

-- the pinned configuration `pin pcfgs adm 0` is `cfg0` only up to unfolding definitions inside types
set_option backward.isDefEq.respectTransparency.types false in
/-- THE REGION: entered from the launch memory — each argument split between its two windows, the result buffer whole,
    the three scalars bypassing —, left with the result buffer as the pipeline's write-back left it and all else as
    launched. The scratch enters the invariant at something and leaves it at something. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V₀ m c) ∗ Owe c)
  post c := iprop(StableHlo.held (c : Thread nD τ) (Pipeline.ucRefs τ sig) (Vx m c) ∗ Owe c)
  X c := iprop(emp)
  Y c := iprop(emp)
  Z c := Pipeline.unscopedRest spec0 c (fun b => V₀ m c b)
  hentry c := by
    rw [← Pipeline.unscopedBufs_held c (V₀ m c), Pipeline.unscopedBufs_split₀ cfgs 0 winFacts₀0.arr_unscoped c]
    iintro ⟨⟨⟨Ha, Hr⟩, HO⟩, -, -⟩
    ihave Ha := (arrays_entry m c _ ((dats m 0 c).arrAt · 0) (fun _ => rfl)) $$ Ha
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [scopedRest0_eq]
    show _ ⊢ iprop(∃ d, owns (c : Thread nD τ) scM fullShare d)
    iintro ⟨-, -, ⟨%f, Hs⟩⟩
    iexists f
    rw [owns_whole]; iexact Hs
  hout c := by
    rw [Pipeline.ownSems0_none, scopedRest0_eq]
    show PhiS m c (Fin.last cfg0.N).val _ ⊢ _
    refine (PhiS_forget m c _ _).trans ?_
    iintro Hs
    isplitr; · iempintro
    isplitr; · iempintro
    iexact Hs
  hexit c := by
    rw [← Pipeline.unscopedBufs_held c (Vx m c), Pipeline.unscopedBufs_split₀ cfgs 0 winFacts₀0.arr_unscoped c, rest_Vx]
    iintro ⟨Ha, HO, -, HZ⟩
    ihave Ha := (arrays_exit m c (fun b => Vx m c b) ((dats m 0 c).arrAt · cfg0.N) (arrAt_last m c)) $$ Ha
    imodintro
    isplitr [HO]
    · isplitl [Ha]; · iexact Ha
      iexact HZ
    · unfold Pipeline.Dat.owesAt Pipeline.owesWithin
      icases HO with ⟨%W, -, HO⟩; iexists W; iexact HO

/-- @main as the list of the two. -/
abbrev segs : List (Pipeline.Seg (pcfgs (F := F)) adm (dats m) () defs₀ 𝒱₀ L lv) := [.region (reg0 m), .host (seg1 m)]

-- as above: the launch theorem's conclusion meets this statement only up to unfolding definitions inside types
set_option backward.isDefEq.respectTransparency.types false in
/-- From any memory with zero semaphore counters every weakly fair execution terminates, nothing faulting; the
    result buffer ends at `result` and both argument arrays as they were. -/
theorem run_main : θ_run defs (onTc (τ := τ) (main (F := F))) ⟨m, fun _ => 0, ρ⟩ (fun r => ∀ c : Dev nD,
    r.2.mem ((c.tc : Thread nD τ).loc main_v2) = result m c
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  Pipeline.θ_run_regions_kit (pcfgs (F := F)) adm (dats m) () cellOf_inj EP defs₀ 𝒱₀ L lv m ρ main (segs m)
    (fun c Q => by rw [main_segs adm (dats m) () 𝒱₀ L lv (seg1 m) (reg0 m) rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ Owe c))
    (Tₙ := fun c => StableHlo.held (c : Thread nD τ) (Pipeline.ucRefs τ sig) (StableHlo.after hostOps1 (Vx m c)))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem ((c : Thread nD τ).1, b) = StableHlo.after hostOps1 (Vx m c) b)
    (hfin := fun c s' => by
      iintro ⟨Hh, HSI⟩
      unfold StableHlo.held
      imodintro
      iapply (pointsTo_read_all (Pipeline.ucRefs τ sig) (fun b => ((c : Thread nD τ).1, b)) (StableHlo.after hostOps1 (Vx m c)) s')
      isplitl [Hh] <;> iassumption)
    (hQ := fun s h c =>
      ⟨h c _ (mem_uc main_v2 (by decide)),
        (h c _ (mem_uc main_arg0 (by decide))).trans (after_arg m c main_arg0 (by decide) (by decide)),
        (h c _ (mem_uc main_arg1 (by decide))).trans (after_arg m c main_arg1 (by decide) (by decide))⟩)

end Cert.KernelIdeal.Hand

end
-- ==== Proof.Spec.lean ====
/-
  The mathematics both programs compute, stated once over the extended reals.

  For x, s : [128, 1024] the loss term at row r and positions i, j is
      term r i j = ((x[r,j] − x[r,i])² − (s[r,j] − s[r,i])²)²
  and the result is the mean of the 128·1024·1024 = 2²⁷ terms. The reference sums them all at once and divides
  by 2²⁷. The kernel walks 256 tiles of 32×128×128 terms in row-major order of (row block, i block, j block),
  keeps a running sum, and multiplies the finished sum by 2⁻²⁷.
-/
import Idealize.ShloMosaic.PureOps.Ideal
import Idealize.ShloMosaic.Lib.ValueIdx

noncomputable section

namespace Cert.Spec

open Idealize.ShloMosaic Idealize.ShloMosaic.ValueIdx

/-- The argument arrays' shape, the shape of all terms, a scalar's. -/
abbrev SArr : Shape := ⟨2, ![128, 1024]⟩
abbrev SCube : Shape := ⟨3, ![128, 1024, 1024]⟩
abbrev SScal : Shape := ⟨0, ![]⟩

/-- An array's entry at natural-number coordinates (zero outside the array: never consulted there). -/
def at2 (x : SArr.Idx → EReal) (r i : ℕ) : EReal :=
  if h : r < 128 ∧ i < 1024 then x (ix2 (⟨r, h.1⟩ : Fin 128) (⟨i, h.2⟩ : Fin 1024)) else 0

theorem at2_eq (x : SArr.Idx → EReal) {r i : ℕ} (hr : r < 128) (hi : i < 1024) :
    at2 x r i = x (ix2 (⟨r, hr⟩ : Fin 128) (⟨i, hi⟩ : Fin 1024)) := dif_pos ⟨hr, hi⟩

/-- From the four entries a term reads — x and s at position i, x and s at position j of one row — the difference
    of the squared differences, squared. -/
def sq4 (xi xj si sj : EReal) : EReal :=
  ((xj - xi) * (xj - xi) - (sj - si) * (sj - si)) * ((xj - xi) * (xj - xi) - (sj - si) * (sj - si))

/-- One term of the loss, at row `r` and positions `i`, `j`. -/
def term (x s : SArr.Idx → EReal) (r i j : ℕ) : EReal := sq4 (at2 x r i) (at2 x r j) (at2 s r i) (at2 s r j)

/-- All 2²⁷ terms, summed. -/
def total (x s : SArr.Idx → EReal) : EReal := ∑ p : SCube.Idx, term x s (p 0).val (p 1).val (p 2).val

/-- The terms of tile `n` (row block `n / 64`, i block `n / 8 % 8`, j block `n % 8`), summed j first, then i, then rows. -/
def tileAt (x s : SArr.Idx → EReal) (n : ℕ) : EReal :=
  ∑ cc : Fin 32, ∑ ii : Fin 128, ∑ jj : Fin 128,
    term x s (n / 64 * 32 + cc.val) (n / 8 % 8 * 128 + ii.val) (n % 8 * 128 + jj.val)

/-- The running sum over the first `n` tiles. -/
def runSum (x s : SArr.Idx → EReal) : ℕ → EReal
  | 0 => 0
  | n + 1 => runSum x s n + tileAt x s n

/-- The result, in the shape the reference computes it: one times the quotient of zero plus the total by 2²⁷
    (the literals kept as their f32 words). -/
def G (x s : SArr.Idx → EReal) : EReal :=
  Ideal.ofBits .f32 0x3F800000#32 * Ideal.div (Ideal.ofBits .f32 0x00000000#32 + total x s) (Ideal.ofBits .f32 0x4D000000#32)

end Cert.Spec

end
-- ==== Proof.KI.Blocks.lean ====
/-
  The four input blocks at point t = 64a + 8b + g are the arrays' entries at rows 32a.. and columns 128b.. (the
  row-position blocks) or 128g.. (the column-position blocks).
-/
import proofs.«104633_j7687991460410_1_alg».proof.Proof.KI.Data
import proofs.«104633_j7687991460410_1_alg».proof.Proof.Spec
import Idealize.ShloMosaic.Lib.ValueIdx
import Idealize.ShloMosaic.Lib.Pipeline.Value

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## The index maps in closed form

  At the point t = 64a + 8b + g the row-position windows sit at block (a, b) = (t / 64, t / 8 % 8) and the
  column-position windows at block (a, g) = (t / 64, t % 8); decided once over the 256 points. -/

/-- The row-position block of x: block row t / 64, block column t / 8 % 8. -/
theorem blockAt_xi : ∀ t : Fin cfg0.N, win0_0.index t (0 : Fin 2) = t.val / 64 ∧ win0_0.index t (1 : Fin 2) = t.val / 8 % 8 :=
  (by decide +kernel : ∀ t : Fin grid0.N, _)

/-- The column-position block of x: block row t / 64, block column t % 8. -/
theorem blockAt_xj : ∀ t : Fin cfg0.N, win0_1.index t (0 : Fin 2) = t.val / 64 ∧ win0_1.index t (1 : Fin 2) = t.val % 8 :=
  (by decide +kernel : ∀ t : Fin grid0.N, _)

/-- The row-position block of the soft target: block row t / 64, block column t / 8 % 8. -/
theorem blockAt_si : ∀ t : Fin cfg0.N, win0_2.index t (0 : Fin 2) = t.val / 64 ∧ win0_2.index t (1 : Fin 2) = t.val / 8 % 8 :=
  (by decide +kernel : ∀ t : Fin grid0.N, _)

/-- The column-position block of the soft target: block row t / 64, block column t % 8. -/
theorem blockAt_sj : ∀ t : Fin cfg0.N, win0_3.index t (0 : Fin 2) = t.val / 64 ∧ win0_3.index t (1 : Fin 2) = t.val % 8 :=
  (by decide +kernel : ∀ t : Fin grid0.N, _)

/-! ## The blocks' entries

  A 32×128 block at block index (p, q) holds the array's rows 32p.. and columns 128q..: its entry (cc, k) is the
  array's entry (32p + cc, 128q + k), which lies inside the 128×1024 array since p < 4 and q < 8. -/

theorem xi_apply (c : Dev nD) (t : Fin cfg0.N) (cc : Fin 32) (ii : Fin 128) :
    xi (F := Ideal) m c t (ix2 cc ii)
      = Cert.Spec.at2 (m ((c : Thread nD τ).loc main_arg0)) (t.val / 64 * 32 + cc.val) (t.val / 8 % 8 * 128 + ii.val) := by
  have hN : cfg0.N = 256 := N_0
  have ht : t.val < 256 := hN ▸ t.isLt
  obtain ⟨e0, e1⟩ := blockAt_xi t
  have hr : t.val / 64 * 32 + cc.val < 128 := by omega
  have hi : t.val / 8 % 8 * 128 + ii.val < 1024 := by omega
  rw [Cert.Spec.at2_eq _ hr hi]
  -- the block's entry (cc, ii) is the array's entry at block index × block size + the coordinate inside
  show m ((c : Thread nD τ).loc main_arg0) (((cfg0.win 0).blk t).view.emb (ix2 cc ii)) = _
  refine congrArg _ ?_
  funext a; apply Fin.ext
  match a with
  | ⟨0, _⟩ => show win0_0.index t (0 : Fin 2) * 32 + 1 * cc.val = t.val / 64 * 32 + cc.val; omega
  | ⟨1, _⟩ => show win0_0.index t (1 : Fin 2) * 128 + 1 * ii.val = t.val / 8 % 8 * 128 + ii.val; omega

theorem xj_apply (c : Dev nD) (t : Fin cfg0.N) (cc : Fin 32) (jj : Fin 128) :
    xj (F := Ideal) m c t (ix2 cc jj)
      = Cert.Spec.at2 (m ((c : Thread nD τ).loc main_arg0)) (t.val / 64 * 32 + cc.val) (t.val % 8 * 128 + jj.val) := by
  have hN : cfg0.N = 256 := N_0
  have ht : t.val < 256 := hN ▸ t.isLt
  obtain ⟨e0, e1⟩ := blockAt_xj t
  have hr : t.val / 64 * 32 + cc.val < 128 := by omega
  have hi : t.val % 8 * 128 + jj.val < 1024 := by omega
  rw [Cert.Spec.at2_eq _ hr hi]
  -- the block's entry (cc, jj) is the array's entry at block index × block size + the coordinate inside
  show m ((c : Thread nD τ).loc main_arg0) (((cfg0.win 1).blk t).view.emb (ix2 cc jj)) = _
  refine congrArg _ ?_
  funext a; apply Fin.ext
  match a with
  | ⟨0, _⟩ => show win0_1.index t (0 : Fin 2) * 32 + 1 * cc.val = t.val / 64 * 32 + cc.val; omega
  | ⟨1, _⟩ => show win0_1.index t (1 : Fin 2) * 128 + 1 * jj.val = t.val % 8 * 128 + jj.val; omega

theorem si_apply (c : Dev nD) (t : Fin cfg0.N) (cc : Fin 32) (ii : Fin 128) :
    si (F := Ideal) m c t (ix2 cc ii)
      = Cert.Spec.at2 (m ((c : Thread nD τ).loc main_arg1)) (t.val / 64 * 32 + cc.val) (t.val / 8 % 8 * 128 + ii.val) := by
  have hN : cfg0.N = 256 := N_0
  have ht : t.val < 256 := hN ▸ t.isLt
  obtain ⟨e0, e1⟩ := blockAt_si t
  have hr : t.val / 64 * 32 + cc.val < 128 := by omega
  have hi : t.val / 8 % 8 * 128 + ii.val < 1024 := by omega
  rw [Cert.Spec.at2_eq _ hr hi]
  -- the block's entry (cc, ii) is the array's entry at block index × block size + the coordinate inside
  show m ((c : Thread nD τ).loc main_arg1) (((cfg0.win 2).blk t).view.emb (ix2 cc ii)) = _
  refine congrArg _ ?_
  funext a; apply Fin.ext
  match a with
  | ⟨0, _⟩ => show win0_2.index t (0 : Fin 2) * 32 + 1 * cc.val = t.val / 64 * 32 + cc.val; omega
  | ⟨1, _⟩ => show win0_2.index t (1 : Fin 2) * 128 + 1 * ii.val = t.val / 8 % 8 * 128 + ii.val; omega

theorem sj_apply (c : Dev nD) (t : Fin cfg0.N) (cc : Fin 32) (jj : Fin 128) :
    sj (F := Ideal) m c t (ix2 cc jj)
      = Cert.Spec.at2 (m ((c : Thread nD τ).loc main_arg1)) (t.val / 64 * 32 + cc.val) (t.val % 8 * 128 + jj.val) := by
  have hN : cfg0.N = 256 := N_0
  have ht : t.val < 256 := hN ▸ t.isLt
  obtain ⟨e0, e1⟩ := blockAt_sj t
  have hr : t.val / 64 * 32 + cc.val < 128 := by omega
  have hi : t.val % 8 * 128 + jj.val < 1024 := by omega
  rw [Cert.Spec.at2_eq _ hr hi]
  -- the block's entry (cc, jj) is the array's entry at block index × block size + the coordinate inside
  show m ((c : Thread nD τ).loc main_arg1) (((cfg0.win 3).blk t).view.emb (ix2 cc jj)) = _
  refine congrArg _ ?_
  funext a; apply Fin.ext
  match a with
  | ⟨0, _⟩ => show win0_3.index t (0 : Fin 2) * 32 + 1 * cc.val = t.val / 64 * 32 + cc.val; omega
  | ⟨1, _⟩ => show win0_3.index t (1 : Fin 2) * 128 + 1 * jj.val = t.val % 8 * 128 + jj.val; omega

end Cert.KernelIdeal.Hand

end
-- ==== Proof.KI.Tile.lean ====
/-
  One point's arithmetic over the extended reals: the new scratch value is the old one plus the sum, over the
  32×128×128 tile, of the squared difference of squared differences of the four blocks' entries.
-/
import proofs.«104633_j7687991460410_1_alg».proof.Proof.Gen.KernelIdeal.Skeleton
import proofs.«104633_j7687991460410_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.ValueIdx

/-! ## Unit axes added by a shape cast, and broadcasts along a unit axis, read at coordinates -/

section Layout
variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An [a, b] array cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a, 1, c] array broadcast to [a, b, c] reads, at (i, j, k), the operand at (i, 0, k). -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An [a, b, 1] array broadcast to [a, b, c] reads, at (i, j, k), the operand at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## A lane sum over one axis of a rank-3 array, read at coordinates -/

section Sums

/-- The index over (i, j) with k put on the last axis. -/
theorem lift_axis2 {a b c : ℕ} (h : (⟨3, ![a, b, c]⟩ : Shape).Reduces [2] ⟨2, ![a, b]⟩) (i : Fin a) (j : Fin b) (k : Fin c) :
    h.lift (ix2 i j) k = ix3 i j k := by
  funext ax
  match ax with
  | ⟨0, _⟩ => rfl
  | ⟨1, _⟩ => rfl
  | ⟨2, _⟩ => rfl

/-- The index over (i, k) with j put on the middle axis. -/
theorem lift_axis1 {a b c : ℕ} (h : (⟨3, ![a, b, c]⟩ : Shape).Reduces [1] ⟨2, ![a, c]⟩) (i : Fin a) (k : Fin c) (j : Fin b) :
    h.lift (ix2 i k) j = ix3 i j k := by
  funext ax
  match ax with
  | ⟨0, _⟩ => rfl
  | ⟨1, _⟩ => rfl
  | ⟨2, _⟩ => rfl

/-- The index over (j, k) with i put on the first axis. -/
theorem lift_axis0 {a b c : ℕ} (h : (⟨3, ![a, b, c]⟩ : Shape).Reduces [0] ⟨2, ![b, c]⟩) (j : Fin b) (k : Fin c) (i : Fin a) :
    h.lift (ix2 j k) i = ix3 i j k := by
  funext ax
  match ax with
  | ⟨0, _⟩ => rfl
  | ⟨1, _⟩ => rfl
  | ⟨2, _⟩ => rfl

/-- The sum over the last axis, at (i, j). -/
theorem sum_axis2 {a b c : ℕ} (src : FVec Ideal ⟨3, ![a, b, c]⟩ .f32)
    (h : (⟨3, ![a, b, c]⟩ : Shape).Reduces [2] ⟨2, ![a, b]⟩) (hφ : FKind.Formats .f32)
    (hacc : (0x00000000#32 : BitVec 32) = FKind.add.neutral .f32 hφ) (i : Fin a) (j : Fin b) :
    multiReduction .add [2] ⟨2, ![a, b]⟩ src 0x00000000#32 h hφ hacc (ix2 i j) = ∑ k : Fin c, src (ix3 i j k) :=
  (Ideal.multiReduction_add_single src _ h hφ hacc (ix2 i j)).trans
    (Finset.sum_congr rfl fun k _ => congrArg src (lift_axis2 h i j k))

/-- The sum over the middle axis, at (i, k). -/
theorem sum_axis1 {a b c : ℕ} (src : FVec Ideal ⟨3, ![a, b, c]⟩ .f32)
    (h : (⟨3, ![a, b, c]⟩ : Shape).Reduces [1] ⟨2, ![a, c]⟩) (hφ : FKind.Formats .f32)
    (hacc : (0x00000000#32 : BitVec 32) = FKind.add.neutral .f32 hφ) (i : Fin a) (k : Fin c) :
    multiReduction .add [1] ⟨2, ![a, c]⟩ src 0x00000000#32 h hφ hacc (ix2 i k) = ∑ j : Fin b, src (ix3 i j k) :=
  (Ideal.multiReduction_add_single src _ h hφ hacc (ix2 i k)).trans
    (Finset.sum_congr rfl fun j _ => congrArg src (lift_axis1 h i k j))

/-- The sum over the first axis, at (j, k). -/
theorem sum_axis0 {a b c : ℕ} (src : FVec Ideal ⟨3, ![a, b, c]⟩ .f32)
    (h : (⟨3, ![a, b, c]⟩ : Shape).Reduces [0] ⟨2, ![b, c]⟩) (hφ : FKind.Formats .f32)
    (hacc : (0x00000000#32 : BitVec 32) = FKind.add.neutral .f32 hφ) (j : Fin b) (k : Fin c) :
    multiReduction .add [0] ⟨2, ![b, c]⟩ src 0x00000000#32 h hφ hacc (ix2 j k) = ∑ i : Fin a, src (ix3 i j k) :=
  (Ideal.multiReduction_add_single src _ h hφ hacc (ix2 j k)).trans
    (Finset.sum_congr rfl fun i _ => congrArg src (lift_axis0 h j k i))

end Sums

/-! ## The kernel body's three payloads -/

/-- A row of 128 entries laid along the last axis of the tile and repeated along the middle one. -/
theorem row_apply {α : Type} (x : S32x128.Idx → α) (h1 : S32x128.ShapeCasts S32x1x128)
    (h3 : S32x1x128.Broadcasts S32x128x128) (cc : Fin 32) (ii jj : Fin 128) :
    broadcastTo S32x128x128 (shapeCast S32x1x128 x h1) h3 (ix3 cc ii jj) = x (ix2 cc jj) :=
  (broadcastTo_a1c_abc_apply _ h3 cc ii jj).trans (shapeCast_ab_a1b_apply x h1 cc 0 jj)

/-- The same row laid along the middle axis and repeated along the last one. -/
theorem col_apply {α : Type} (x : S32x128.Idx → α) (h2 : S32x128.ShapeCasts S32x128x1)
    (h4 : S32x128x1.Broadcasts S32x128x128) (cc : Fin 32) (ii jj : Fin 128) :
    broadcastTo S32x128x128 (shapeCast S32x128x1 x h2) h4 (ix3 cc ii jj) = x (ix2 cc ii) :=
  (broadcastTo_ab1_abc_apply _ h4 cc ii jj).trans (shapeCast_ab_ab1_apply x h2 cc ii 0)

/-- The one index of a [1, 1] array. -/
theorem idx11 (j : S1x1.Idx) : j = ix2 (0 : Fin 1) (0 : Fin 1) := by
  funext ax
  match ax with
  | ⟨0, _⟩ => exact Fin.ext (Nat.lt_one_iff.mp (j 0).isLt)
  | ⟨1, _⟩ => exact Fin.ext (Nat.lt_one_iff.mp (j 1).isLt)

/-- The new scratch value: the old one plus the tile's sum, taken over the last axis first, then the middle one, then
    the rows. -/
theorem pay3_apply (xi xj si sj : Vec Ideal S32x128 .f32) (a : Vec Ideal S1x1 .f32) (j : S1x1.Idx) :
    k0_pay3 (F := Ideal) xi xj si sj a j
      = a j + ∑ cc : Fin 32, ∑ ii : Fin 128, ∑ jj : Fin 128,
          Cert.Spec.sq4 (xi (ix2 cc ii)) (xj (ix2 cc jj)) (si (ix2 cc ii)) (sj (ix2 cc jj)) := by
  obtain rfl := idx11 j
  unfold k0_pay3
  refine (congrFun (shapeCast_self _ _) _).trans ?_
  rw [addf_apply]
  refine congrArg (a (ix2 (0 : Fin 1) (0 : Fin 1)) + ·) ?_
  refine (shapeCast_1ab_ab_apply _ _ 0 0).trans ?_
  refine (shapeCast_ab_ab1_apply _ _ 0 0 0).trans ?_
  refine (sum_axis0 _ _ _ _ 0 0).trans ?_
  refine Finset.sum_congr rfl fun cc _ => ?_
  refine (shapeCast_ab_ab1_apply _ _ cc 0 0).trans ?_
  refine (sum_axis1 _ _ _ _ cc 0).trans ?_
  refine Finset.sum_congr rfl fun ii _ => ?_
  refine (shapeCast_ab_ab1_apply _ _ cc ii 0).trans ?_
  refine (sum_axis2 _ _ _ _ cc ii).trans ?_
  refine Finset.sum_congr rfl fun jj _ => ?_
  simp only [mulf_apply, subf_apply, row_apply, col_apply]
  rfl

/-- The reset value is zero. -/
theorem pay2_apply (j : S1x1.Idx) : k0_pay2 (F := Ideal) j = 0 := by
  unfold k0_pay2
  refine (congrFun (shapeCast_self _ _) j).trans ?_
  exact Ideal.ofBits_zero_f32

/-- The stored output is the scratch times the word of 2⁻²⁷. -/
theorem pay1_apply (a : Vec Ideal S1x1 .f32) (j : S1x1.Idx) :
    k0_pay1 (F := Ideal) a j = a j * Ideal.ofBits .f32 0x32000000#32 := by
  unfold k0_pay1
  rfl

end Cert.KernelIdeal.Hand

end
-- ==== Proof.KI.Acc.lean ====
/-
  The scratch after point n holds the running sum over the first n + 1 tiles.
-/
import proofs.«104633_j7687991460410_1_alg».proof.Proof.KI.Blocks
import proofs.«104633_j7687991460410_1_alg».proof.Proof.KI.Tile

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-- The tile sum over the four blocks of point t is the specification's tile sum of tile t: each block entry is
    the array's entry at the tile's row and position. -/
theorem tileSum_eq (c : Dev nD) (t : Fin cfg0.N) :
    (∑ cc : Fin 32, ∑ ii : Fin 128, ∑ jj : Fin 128,
        Cert.Spec.sq4 (xi (F := Ideal) m c t (ix2 cc ii)) (xj (F := Ideal) m c t (ix2 cc jj))
          (si (F := Ideal) m c t (ix2 cc ii)) (sj (F := Ideal) m c t (ix2 cc jj)))
      = Cert.Spec.tileAt (m ((c : Thread nD τ).loc main_arg0)) (m ((c : Thread nD τ).loc main_arg1)) t.val := by
  unfold Cert.Spec.tileAt Cert.Spec.term
  refine Finset.sum_congr rfl fun cc _ => Finset.sum_congr rfl fun ii _ => Finset.sum_congr rfl fun jj _ => ?_
  rw [xi_apply m c t cc ii, xj_apply m c t cc jj, si_apply m c t cc ii, sj_apply m c t cc jj]

/-- By induction on the point: the first point adds its tile to the zeroed scratch, every later point adds its
    tile to what the point before left. -/
theorem accAt_apply (c : Dev nD) (n : ℕ) (h : n < cfg0.N) (j : S1x1.Idx) :
    accAt (F := Ideal) m c n h j
      = Cert.Spec.runSum (m ((c : Thread nD τ).loc main_arg0)) (m ((c : Thread nD τ).loc main_arg1)) (n + 1) := by
  induction n with
  | zero =>
    rw [accAt_zero]
    refine (pay3_apply _ _ _ _ _ j).trans ?_
    rw [pay2_apply, tileSum_eq m c ⟨0, h⟩]
    show _ = Cert.Spec.runSum _ _ 0 + Cert.Spec.tileAt _ _ 0
    rw [show Cert.Spec.runSum (m ((c : Thread nD τ).loc main_arg0)) (m ((c : Thread nD τ).loc main_arg1)) 0 = 0 from rfl]
  | succ n ih =>
    rw [accAt_succ]
    refine (pay3_apply _ _ _ _ _ j).trans ?_
    rw [ih (Nat.lt_of_succ_lt h), tileSum_eq m c ⟨n + 1, h⟩]
    rfl

end Cert.KernelIdeal.Hand

end
-- ==== Proof.Regroup.lean ====
/-
  The 256 tiles partition the 128×1024×1024 terms: the running sum over all tiles is the total.

  The argument never looks inside a term. For an arbitrary family f r i j over natural-number coordinates:
  each axis splits into (block, offset) — 128 = 4·32 rows, 1024 = 8·128 positions twice — the tile number
  n < 256 is (row block, i block, j block) read in base (4, 8, 8), and finite sums over a commutative monoid
  may be nested in any order.
-/
import proofs.«104633_j7687991460410_1_alg».proof.Proof.Spec
import Mathlib.Algebra.BigOperators.Fin
import Mathlib.Algebra.BigOperators.Group.Finset.Basic
import Mathlib.Algebra.BigOperators.Group.Finset.Defs
import Mathlib.Algebra.BigOperators.Group.Finset.Sigma
import Mathlib.Data.Fintype.BigOperators
import Mathlib.Logic.Equiv.Fin.Basic

noncomputable section

namespace Cert.Spec

open Idealize.ShloMosaic Idealize.ShloMosaic.ValueIdx

/-! ## Sums over an arbitrary commutative monoid -/

section General
variable {M : Type*} [AddCommMonoid M]

/-- A sum over the a·b naturals below a·b is the double sum over (block, offset): the index is block·b + offset. -/
theorem sum_fin_mul (a b : ℕ) (g : ℕ → M) :
    ∑ r : Fin (a * b), g r.val = ∑ p : Fin a, ∑ q : Fin b, g (p.val * b + q.val) := by
  rw [← Equiv.sum_comp (finProdFinEquiv (m := a) (n := b)) (fun r => g r.val), Fintype.sum_prod_type]
  refine Finset.sum_congr rfl fun p _ => Finset.sum_congr rfl fun q _ => ?_
  show g (q.val + b * p.val) = g (p.val * b + q.val)
  rw [Nat.mul_comm b p.val, Nat.add_comm]

/-- 128 rows are 4 blocks of 32. -/
theorem sum_fin128 (g : ℕ → M) :
    ∑ r : Fin 128, g r.val = ∑ p : Fin 4, ∑ q : Fin 32, g (p.val * 32 + q.val) := sum_fin_mul 4 32 g

/-- 1024 positions are 8 blocks of 128. -/
theorem sum_fin1024 (g : ℕ → M) :
    ∑ r : Fin 1024, g r.val = ∑ p : Fin 8, ∑ q : Fin 128, g (p.val * 128 + q.val) := sum_fin_mul 8 128 g

/-- 256 tile numbers are 4 groups of 64 … -/
theorem sum_fin256_64 (g : ℕ → M) :
    ∑ r : Fin 256, g r.val = ∑ p : Fin 4, ∑ q : Fin 64, g (p.val * 64 + q.val) := sum_fin_mul 4 64 g

/-- … and 64 is 8 groups of 8 … -/
theorem sum_fin64 (g : ℕ → M) :
    ∑ r : Fin 64, g r.val = ∑ p : Fin 8, ∑ q : Fin 8, g (p.val * 8 + q.val) := sum_fin_mul 8 8 g

/-- … so a tile number is a triple of digits in base (4, 8, 8). -/
theorem sum_fin256 (g : ℕ → M) :
    ∑ n : Fin 256, g n.val = ∑ a : Fin 4, ∑ b : Fin 8, ∑ c : Fin 8, g (a.val * 64 + (b.val * 8 + c.val)) := by
  refine (sum_fin256_64 g).trans ?_
  refine Finset.sum_congr rfl fun a _ => ?_
  exact sum_fin64 (fun m => g (a.val * 64 + m))

/-- The terms of the tile at block coordinates (a, b, c), for an arbitrary family. -/
def tileOf (f : ℕ → ℕ → ℕ → M) (a b c : ℕ) : M :=
  ∑ cc : Fin 32, ∑ ii : Fin 128, ∑ jj : Fin 128, f (a * 32 + cc.val) (b * 128 + ii.val) (c * 128 + jj.val)

/-- The digits of a·64 + (b·8 + c) are a, b, c. -/
theorem digits_of (a b c : ℕ) (hb : b < 8) (hc : c < 8) :
    (a * 64 + (b * 8 + c)) / 64 = a ∧ (a * 64 + (b * 8 + c)) / 8 % 8 = b ∧ (a * 64 + (b * 8 + c)) % 8 = c := by
  omega

/-- Walking the tile numbers 0 … 255 walks the block coordinates (a, b, c) in row-major order. -/
theorem sum_tiles (T : ℕ → ℕ → ℕ → M) :
    ∑ n ∈ Finset.range 256, T (n / 64) (n / 8 % 8) (n % 8) = ∑ a : Fin 4, ∑ b : Fin 8, ∑ c : Fin 8, T a.val b.val c.val := by
  rw [Finset.sum_range]
  refine (sum_fin256 (fun n => T (n / 64) (n / 8 % 8) (n % 8))).trans ?_
  refine Finset.sum_congr rfl fun a _ => Finset.sum_congr rfl fun b _ => Finset.sum_congr rfl fun c _ => ?_
  obtain ⟨h1, h2, h3⟩ := digits_of a.val b.val c.val b.isLt c.isLt
  show T ((a.val * 64 + (b.val * 8 + c.val)) / 64) ((a.val * 64 + (b.val * 8 + c.val)) / 8 % 8)
      ((a.val * 64 + (b.val * 8 + c.val)) % 8) = T a.val b.val c.val
  rw [h1, h2, h3]

/-- Every axis split into (block, offset): the whole cube as six nested sums, each axis's block before its offset. -/
theorem sum_cube_split (f : ℕ → ℕ → ℕ → M) :
    ∑ r : Fin 128, ∑ i : Fin 1024, ∑ j : Fin 1024, f r.val i.val j.val
      = ∑ a : Fin 4, ∑ cc : Fin 32, ∑ b : Fin 8, ∑ ii : Fin 128, ∑ c : Fin 8, ∑ jj : Fin 128,
          f (a.val * 32 + cc.val) (b.val * 128 + ii.val) (c.val * 128 + jj.val) := by
  refine (sum_fin128 (fun r => ∑ i : Fin 1024, ∑ j : Fin 1024, f r i.val j.val)).trans ?_
  refine Finset.sum_congr rfl fun a _ => Finset.sum_congr rfl fun cc _ => ?_
  refine (sum_fin1024 (fun i => ∑ j : Fin 1024, f (a.val * 32 + cc.val) i j.val)).trans ?_
  refine Finset.sum_congr rfl fun b _ => Finset.sum_congr rfl fun ii _ => ?_
  exact sum_fin1024 (fun j => f (a.val * 32 + cc.val) (b.val * 128 + ii.val) j)

/-- The three block sums brought to the front. -/
theorem sum_blocks_first (F : Fin 4 → Fin 32 → Fin 8 → Fin 128 → Fin 8 → Fin 128 → M) :
    ∑ a, ∑ cc, ∑ b, ∑ ii, ∑ c, ∑ jj, F a cc b ii c jj = ∑ a, ∑ b, ∑ c, ∑ cc, ∑ ii, ∑ jj, F a cc b ii c jj := by
  refine Finset.sum_congr rfl fun a _ => ?_
  refine Finset.sum_comm.trans ?_
  refine Finset.sum_congr rfl fun b _ => ?_
  refine (Finset.sum_congr rfl fun cc _ => Finset.sum_comm).trans ?_
  exact Finset.sum_comm

/-- THE REGROUPING, for an arbitrary family: the 256 tiles, walked in order, cover the cube exactly once. -/
theorem regroup (f : ℕ → ℕ → ℕ → M) :
    ∑ n ∈ Finset.range 256, tileOf f (n / 64) (n / 8 % 8) (n % 8)
      = ∑ r : Fin 128, ∑ i : Fin 1024, ∑ j : Fin 1024, f r.val i.val j.val := by
  rw [sum_tiles (tileOf f), sum_cube_split f]
  exact (sum_blocks_first fun a cc b ii c jj =>
    f (a.val * 32 + cc.val) (b.val * 128 + ii.val) (c.val * 128 + jj.val)).symm

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end General

/-! ## The specification's sums -/

/-- The running sum over the first n tiles is the sum of those tiles. -/
theorem runSum_eq_sum (x s : SArr.Idx → EReal) (n : ℕ) :
    runSum x s n = ∑ k ∈ Finset.range n, tileAt x s k := by
  induction n with
  | zero => rfl
  | succ n ih =>
    rw [Finset.sum_range_succ, ← ih]
    rfl

/-- The total as the triple sum over row and the two positions. -/
theorem total_eq (x s : SArr.Idx → EReal) :
    total x s = ∑ r : Fin 128, ∑ i : Fin 1024, ∑ j : Fin 1024, term x s r.val i.val j.val :=
  sum_idx3 (n0 := 128) (n1 := 1024) (n2 := 1024) fun p => term x s (p 0).val (p 1).val (p 2).val

/-- Summing tile by tile, in any grouping, sums every term exactly once. -/
theorem runSum_all (x s : SArr.Idx → EReal) : runSum x s 256 = total x s := by
  rw [runSum_eq_sum, total_eq]
  exact regroup (term x s)

end Cert.Spec

end
-- ==== Proof.Consts.lean ====
/-
  The two scale literals are exact powers of two, 2⁻²⁷ and 2²⁷: multiplying by the one is dividing by the other,
  on every extended real.
-/
import Idealize.ShloMosaic.PureOps.Ideal
import Idealize.ShloMosaic.PureOps.Ideal.Laws

noncomputable section

namespace Cert.Spec

open Idealize.ShloMosaic

/-- The word with exponent field 154 and zero significand denotes 2²³ · 2^(154 − 127 − 23) = 2²⁷ = 134217728. -/
theorem ofBits_two_pow_27 : Ideal.ofBits .f32 0x4D000000#32 = ((134217728 : ℝ) : EReal) := by
  simp [Ideal.ofBits, Ideal.ieee, -EReal.coe_mul]; norm_num

/-- The word with exponent field 100 and zero significand denotes 2²³ · 2^(100 − 127 − 23) = 2⁻²⁷. -/
theorem ofBits_two_pow_neg_27 : Ideal.ofBits .f32 0x32000000#32 = ((1 / 134217728 : ℝ) : EReal) := by
  simp [Ideal.ofBits, Ideal.ieee, -EReal.coe_mul]; norm_num

/-- The kernel's product with the word of 2⁻²⁷ is the reference's quotient, by the word of 2²⁷, of zero plus the same number. -/
theorem scale_eq (a : EReal) :
    a * Ideal.ofBits .f32 0x32000000#32 = Ideal.div (Ideal.ofBits .f32 0x00000000#32 + a) (Ideal.ofBits .f32 0x4D000000#32) := by
  rw [ofBits_two_pow_27, ofBits_two_pow_neg_27, Ideal.ofBits_zero_f32, zero_add,
    Ideal.div_coe (by norm_num : (134217728 : ℝ) ≠ 0)]

end Cert.Spec

end
-- ==== Proof.KI.Value.lean ====
/-
  What the idealized kernel returns: the output array ends at what the last point stored, the host operations
  reshape it to a scalar and multiply by one, and that is the specification's result.
-/
import proofs.«104633_j7687991460410_1_alg».proof.Proof.KI.Acc
import proofs.«104633_j7687991460410_1_alg».proof.Proof.Regroup
import proofs.«104633_j7687991460410_1_alg».proof.Proof.Consts
import Idealize.ShloMosaic.Lib.StableHlo.Run
import Idealize.ShloMosaic.Lib.Pipeline.Value

noncomputable section

namespace Cert.KernelIdeal.Hand

open Cert.KernelIdeal Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section
variable {F : FTy → Type} [FloatOps F]
variable (m : (ℓ : Loc nD τ sig) → Buf (Elt F) ℓ)

/-- The output's index map is the constant (0, 0): at every point its 1×1 block starts at offset zero on both
    axes of the 1×1 array. -/
theorem outArr_offsets (t : Fin cfg0.N) : (fun a => win0_4.index t a * main_v0.ty.shape.size a) = fun _ => 0 :=
  funext fun a => by
    match a with
    | ⟨0, _⟩ => rfl
    | ⟨1, _⟩ => rfl

/-- What a point writes back into the output array is the block of one array: the output value does not depend
    on the point, and a 1×1 block at offset zero read out of a 1×1 array is the array itself. -/
theorem outArr_flushed (c : Dev nD) (t : Fin cfg0.N) :
    (dats m 0 c).flushed 4 t = ((cfg0.win 4).blk t).view.read (Elt F) (outVal m c) := by
  show (cfg0.win 4).cut (grid0.coords t) ((dats m 0 c).after 4 t) = _
  dsimp only [dats]
  exact (Memref.read_access_unit_zero (Elt F) main_v0 (outArr_offsets t)
    (fun a => by rw [congrFun (outArr_offsets t) a]; exact (Nat.zero_add _).le) (outVal m c)).symm

/-- The output array is written back once, at the last point, whole. -/
theorem arrAt_out (c : Dev nD) : (dats m 0 c).arrAt 4 cfg0.N = outVal m c :=
  -- every write-back writes the block of `outVal`, and the last point (t = 255, the one point that writes back)
  -- covers the array's single entry
  (dats m 0 c).arrAt_eq_of_cover 4 (outVal m c) (fun t _ => outArr_flushed m c t) fun i =>
    ⟨tLast, (flush0_4 tLast).mpr rfl, by
      show i ∈ ((View.whole main_v0).slice (win0_4.rect tLast)).set
      rw [View.set_slice_whole]
      exact View.mem_set_unit_zero (outArr_offsets tLast) _ i⟩

end

variable (m : (ℓ : Loc nD τ sig) → Buf (Elt Ideal) ℓ)

/-- The returned scalar: one times the single entry of the output array. That entry is the scratch after the
    last point times 2⁻²⁷; the scratch after point 255 is the running sum over all 256 tiles, which is the total
    over all terms; and the product with 2⁻²⁷ is the quotient by 2²⁷ of zero plus the total. -/
theorem result_eq (c : Dev nD) :
    result (F := Ideal) m c
      = fun _ => Cert.Spec.G (m ((c : Thread nD τ).loc main_arg0)) (m ((c : Thread nD τ).loc main_arg1)) := by
  unfold result
  show StableHlo.after hostOps1 _ (Proc.devRef .tc main_v2) = _
  after_results
  funext i
  -- the output array when the region has ended
  have hV : (Vx m c (Proc.devRef .tc main_v0) : Vec Ideal S1x1 .f32) = outVal m c := by
    unfold Vx
    rw [Function.update_self]
    exact arrAt_out m c
  -- the scalar and the 1×1 array's entry (0, 0) are both at row-major position 0
  have hpos : (S1x1.rowMajor (ix2 0 0)).val = (S_.rowMajor i).val := by
    rw [Shape.rowMajor_val_two, show (S_.rowMajor i).val = 0 from Shape.rowMajorPi_zero _ i]
    rfl
  show Ideal.ofBits .f32 0x3F800000#32 * shapeCast S_ (Vx m c (Proc.devRef .tc main_v0)) shapeCasts_S1x1_S_ i
    = Cert.Spec.G _ _
  rw [hV, shapeCast_apply (outVal m c) shapeCasts_S1x1_S_ i (ix2 0 0) hpos]
  unfold outVal
  rw [pay1_apply, accAt_apply, Cert.Spec.runSum_all, Cert.Spec.scale_eq]
  rfl

end Cert.KernelIdeal.Hand

end
-- ==== Proof.RefSide.lean ====
/-
  The reference's side of the bridge: the mean of ((x[r,j]−x[r,i])² − (s[r,j]−s[r,i])²)² over all (r,i,j),
  read off the reference's run one operation at a time, is the specification's result.
-/
import proofs.«104633_j7687991460410_1_alg».proof.Proof.Gen.ReferenceIdeal.Run
import proofs.«104633_j7687991460410_1_alg».proof.Proof.Gen.ReferenceIdeal.Read
import proofs.«104633_j7687991460410_1_alg».proof.Proof.Spec

noncomputable section

namespace Cert.ReferenceIdeal.RefValue

open Cert.ReferenceIdeal Cert.ReferenceIdeal.Gen
open Idealize.ShloMosaic Idealize.ShloMosaic.ValueIdx

/-- The first argument, given a new middle axis and then spread over it, is read at (r, i, j) at its entry (r, j). -/
theorem idx_x_last (p : S128x1024x1024.Idx) :
    Read.idx_main_v0 (Read.idx_main_v2 p)
      = ix2 (⟨(p 0).val, (p 0).isLt⟩ : Fin 128) (⟨(p 2).val, (p 2).isLt⟩ : Fin 1024) :=
  funext fun a => Fin.ext (by match a with | ⟨0, _⟩ => rfl | ⟨1, _⟩ => rfl)

/-- The first argument, given a new last axis and then spread over it, is read at (r, i, j) at its entry (r, i). -/
theorem idx_x_mid (p : S128x1024x1024.Idx) :
    Read.idx_main_v1 (Read.idx_main_v3 p)
      = ix2 (⟨(p 0).val, (p 0).isLt⟩ : Fin 128) (⟨(p 1).val, (p 1).isLt⟩ : Fin 1024) :=
  funext fun a => Fin.ext (by match a with | ⟨0, _⟩ => rfl | ⟨1, _⟩ => rfl)

/-- The second argument, given a new middle axis and then spread over it, is read at (r, i, j) at its entry (r, j). -/
theorem idx_s_last (p : S128x1024x1024.Idx) :
    Read.idx_main_v6 (Read.idx_main_v8 p)
      = ix2 (⟨(p 0).val, (p 0).isLt⟩ : Fin 128) (⟨(p 2).val, (p 2).isLt⟩ : Fin 1024) :=
  funext fun a => Fin.ext (by match a with | ⟨0, _⟩ => rfl | ⟨1, _⟩ => rfl)

/-- The second argument, given a new last axis and then spread over it, is read at (r, i, j) at its entry (r, i). -/
theorem idx_s_mid (p : S128x1024x1024.Idx) :
    Read.idx_main_v7 (Read.idx_main_v9 p)
      = ix2 (⟨(p 0).val, (p 0).isLt⟩ : Fin 128) (⟨(p 1).val, (p 1).isLt⟩ : Fin 1024) :=
  funext fun a => Fin.ext (by match a with | ⟨0, _⟩ => rfl | ⟨1, _⟩ => rfl)

/-- The reference's last elementwise stage, at (r, i, j), is the specification's term there: the first difference is
    x[r,j] − x[r,i], the second s[r,j] − s[r,i]; their squares are subtracted and the result squared. -/
theorem term_at (x0 x1 : (⟨S128x1024, .f32⟩ : BufTy).Contents (Elt Ideal)) (p : S128x1024x1024.Idx) :
    Read.val_main_v13 (F := Ideal) x0 x1 p = Cert.Spec.term x0 x1 (p 0).val (p 1).val (p 2).val := by
  rw [Read.val_main_v13_apply, Read.val_main_v12_apply, Read.val_main_v5_apply, Read.val_main_v11_apply,
    Read.val_main_v4_apply, Read.val_main_v10_apply, Read.val_main_v2_apply, Read.val_main_v3_apply,
    Read.val_main_v8_apply, Read.val_main_v9_apply, Read.val_main_v0_apply, Read.val_main_v1_apply,
    Read.val_main_v6_apply, Read.val_main_v7_apply, idx_x_last, idx_x_mid, idx_s_last, idx_s_mid]
  unfold Cert.Spec.term Cert.Spec.sq4
  rw [Cert.Spec.at2_eq x0 (p 0).isLt (p 1).isLt, Cert.Spec.at2_eq x0 (p 0).isLt (p 2).isLt,
    Cert.Spec.at2_eq x1 (p 0).isLt (p 1).isLt, Cert.Spec.at2_eq x1 (p 0).isLt (p 2).isLt]
  simp only [Ideal.mulf_def, Ideal.subf_def]

theorem ref_eq (x0 x1 : (⟨S128x1024, .f32⟩ : BufTy).Contents (Elt Ideal)) :
    Cert.ReferenceIdeal.Read.val_main_v16 (F := Ideal) x0 x1 = fun _ => Cert.Spec.G x0 x1 := by
  funext i
  rw [Read.val_main_v16_apply, Read.val_main_v15_apply, Read.val_main_v14_apply, Read.val_main_cst_apply,
    Read.val_main_cst_0_apply, Read.val_main_cst_1_apply]
  rw [Finset.sum_congr rfl fun p _ => term_at x0 x1 p]
  unfold Cert.Spec.G Cert.Spec.total
  simp only [Ideal.mulf_def, Ideal.hostDivf_def, Ideal.ofBits_def]

end Cert.ReferenceIdeal.RefValue

end
-- ==== Proof.lean ====
/-
  The certificate: a relation loss computed tile by tile on the chip against its one-line jnp reference.

  For x, s : f32[128, 1024] both programs return the mean over rows r and positions i, j of
  ((x[r,j] − x[r,i])² − (s[r,j] − s[r,i])²)². The kernel walks the 128×1024×1024 terms in 256 tiles of
  32×128×128, adds each tile's sum to a one-element scratch, and at the last tile multiplies by 2⁻²⁷; the reference
  sums all terms and divides by 2²⁷. Over the extended reals a sum does not depend on its grouping and the two
  scale words are exact reciprocal powers of two, so the results agree at every input.

  The kernel is handed each argument array through two windows (its row-position block and its column-position
  block), so the arrays are held at half shares by the windows on them; its run is proved once for any float
  instance and read at the word level for the kernel as printed and at the extended reals for its idealization.
  The idealization rewrote no operation, so there is nothing to preserve.
-/
import proofs.«104633_j7687991460410_1_alg».proof.Proof.Gen.Kernel
import proofs.«104633_j7687991460410_1_alg».proof.Proof.Gen.KernelIdeal
import proofs.«104633_j7687991460410_1_alg».proof.Proof.Gen.ReferenceIdeal
import proofs.«104633_j7687991460410_1_alg».proof.Proof.Gen.Pre_finite_inputs
import proofs.«104633_j7687991460410_1_alg».proof.Proof.K.Run
import proofs.«104633_j7687991460410_1_alg».proof.Proof.KI.Run
import proofs.«104633_j7687991460410_1_alg».proof.Proof.KI.Value
import proofs.«104633_j7687991460410_1_alg».proof.Proof.RefSide
import proofs.«104633_j7687991460410_1_alg».proof.Defs
import Idealize.ShloMosaic.Adequacy
import Idealize.ShloMosaic.Init

noncomputable section

namespace Cert.Proof

open Idealize.ShloMosaic Idealize.ShloMosaic.TcCoe Idealize.SL.Sem

/-- The kernel as printed terminates without a fault and leaves both argument arrays as they were. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- The reference is a line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the mean of the squared differences of squared differences of their
    (agreeing) arguments. -/
theorem algebraic : Cert.algebraic_KernelIdeal_ReferenceIdeal := by
  intro m ρ m' ρ' _ hagree
  refine ⟨fun c _ => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.Hand.result_eq m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v16_eq, Cert.ReferenceIdeal.RefValue.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
